-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_v213) = v1 c
          ∧ r.2.mem ((c.tc : Thread Cert.ReferenceIdeal.nD Cert.ReferenceIdeal.τ).loc Cert.ReferenceIdeal.main_v224) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x7x7x13 : Shape := ⟨4, ![32768, 7, 7, 13]⟩
abbrev S_ : Shape := ⟨0, ![]⟩

class Facts : Prop where
  bcast_S_S32768x7x7x13 : S_.BroadcastsInDim S32768x7x7x13 (![] : Fin 0 → Fin S32768x7x7x13.rank)
  reducesTo_S32768x7x7x13_S_d0_1_2_3 : S32768x7x7x13.ReducesTo [0, 1, 2, 3] S_
  h_S_ : 0 < S_.numel

variable [Facts]

def fn {F : FTy → Type} [FloatOps F] (main_arg0 : FVec F S32768x7x7x13 .f32) (main_arg1 : FVec F S32768x7x7x13 .f32) : IVec S_ 1 :=
  let main_v0 : FVec F S32768x7x7x13 .f32 := Host.absf main_arg0
  let main_cst : FVec F S_ .f32 := constant S_ .f32 0x7F800000#32
  let main_v1 : FVec F S32768x7x7x13 .f32 := broadcastInDim S32768x7x7x13 ![] bcast_S_S32768x7x7x13 main_cst
  let main_v2 : IVec S32768x7x7x13 1 := cmpf .olt main_v0 main_v1
  let main_c : IVec S_ 1 := constantI S_ 1 1#1
  let main_v3 : IVec S_ 1 := (fun x v => Host.reduce IntOp.andi x v reducesTo_S32768x7x7x13_S_d0_1_2_3 h_S_) main_v2 main_c
  let main_v4 : FVec F S32768x7x7x13 .f32 := Host.absf main_arg1
  let main_cst_0 : FVec F S_ .f32 := constant S_ .f32 0x7F800000#32
  let main_v5 : FVec F S32768x7x7x13 .f32 := broadcastInDim S32768x7x7x13 ![] bcast_S_S32768x7x7x13 main_cst_0
  let main_v6 : IVec S32768x7x7x13 1 := cmpf .olt main_v4 main_v5
  let main_c_1 : IVec S_ 1 := constantI S_ 1 1#1
  let main_v7 : IVec S_ 1 := (fun x v => Host.reduce IntOp.andi x v reducesTo_S32768x7x7x13_S_d0_1_2_3 h_S_) main_v6 main_c_1
  let main_v8 : IVec S_ 1 := andi main_v3 main_v7
  main_v8
-- ==== Kernel.lean ====
abbrev S32768x7x7x13 : Shape := ⟨4, ![32768, 7, 7, 13]⟩
abbrev S1605632x13 : Shape := ⟨2, ![1605632, 13]⟩
abbrev S2x8x128 : Shape := ⟨3, ![2, 8, 128]⟩
abbrev S7168x13 : Shape := ⟨2, ![7168, 13]⟩
abbrev S1x8x128 : Shape := ⟨3, ![1, 8, 128]⟩
abbrev S13x7168 : Shape := ⟨2, ![13, 7168]⟩
abbrev S4x7168 : Shape := ⟨2, ![4, 7168]⟩
abbrev S1x7168 : Shape := ⟨2, ![1, 7168]⟩
abbrev S3x7168 : Shape := ⟨2, ![3, 7168]⟩
abbrev S7168 : Shape := ⟨1, ![7168]⟩
abbrev S2x7168 : Shape := ⟨2, ![2, 7168]⟩
abbrev S1 : Shape := ⟨1, ![1]⟩
abbrev S1x1 : Shape := ⟨2, ![1, 1]⟩
abbrev S1x3x7168 : Shape := ⟨3, ![1, 3, 7168]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 29
  | .vmem => 12
  | .smem => 0
  | _ => 0

abbrev bufTy : (tb : Table) → Fin (tcTables nBuf tb) → BufTy
  | .hbm, ⟨0, _⟩ => ⟨S32768x7x7x13, .f32⟩
  | .hbm, ⟨1, _⟩ => ⟨S32768x7x7x13, .f32⟩
  | .hbm, ⟨2, _⟩ => ⟨S1605632x13, .f32⟩
  | .hbm, ⟨3, _⟩ => ⟨S1605632x13, .f32⟩
  | .hbm, ⟨4, _⟩ => ⟨S2x8x128, .f32⟩
  | .hbm, ⟨5, _⟩ => ⟨S2x8x128, .f32⟩
  | .hbm, ⟨6, _⟩ => ⟨S2x8x128, .f32⟩
  | .hbm, ⟨7, _⟩ => ⟨S2x8x128, .f32⟩
  | .hbm, ⟨8, _⟩ => ⟨S2x1x1, .f32⟩
  | .hbm, ⟨9, _⟩ => ⟨S2, .f32⟩
  | .hbm, ⟨10, _⟩ => ⟨S_, .f32⟩
  | .hbm, ⟨11, _⟩ => ⟨S_, .f32⟩
  | .hbm, ⟨12, _⟩ => ⟨S2x1x1, .f32⟩
  | .hbm, ⟨13, _⟩ => ⟨S2, .f32⟩
  | .hbm, ⟨14, _⟩ => ⟨S_, .f32⟩
  | .hbm, ⟨15, _⟩ => ⟨S_, .f32⟩
  | .hbm, ⟨16, _⟩ => ⟨S2x1x1, .f32⟩
  | .hbm, ⟨17, _⟩ => ⟨S2, .f32⟩
  | .hbm, ⟨18, _⟩ => ⟨S_, .f32⟩
  | .hbm, ⟨19, _⟩ => ⟨S_, .f32⟩
  | .hbm, ⟨20, _⟩ => ⟨S2x1x1, .f32⟩
  | .hbm, ⟨21, _⟩ => ⟨S2, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S7168x13, .f32⟩
  | .local _ .vmem, ⟨1, _⟩ => ⟨S7168x13, .f32⟩
  | .local _ .vmem, ⟨2, _⟩ => ⟨S7168x13, .f32⟩
  | .local _ .vmem, ⟨3, _⟩ => ⟨S7168x13, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | _, _ => ⟨S32768x7x7x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 112], ![false, false]⟩

def cc0_transform_0 (i : grid0.Coords) : Fin 2 → Nat :=
  let arg0 : BitVec 32 := BitVec.ofNat 32 (i 0).val
  let arg1 : BitVec 32 := BitVec.ofNat 32 (i 1).val
  let c112_i32 : BitVec 32 := 112#32
  let v0 : BitVec 32 := Scalar.muli arg0 c112_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c112_i32 : BitVec 32 := 112#32
  let v0 : BitVec 32 := Scalar.muli arg0 c112_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S7168x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S7168x13 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S32768x7x7x13_S1605632x13 : S32768x7x7x13.ShapeCasts S1605632x13
  inb_S1x8x128_S1x8x128_0_0_0 : ∀ a, (![0, 0, 0] : Fin 3 → Nat) a + S1x8x128.size a ≤ S1x8x128.size a
  h_S1x8x128 : 0 < S1x8x128.numel
  inb_S7168x13_S7168x13_0_0 : ∀ a, (![0, 0] : Fin 2 → Nat) a + S7168x13.size a ≤ S7168x13.size a
  h_S7168x13 : 0 < S7168x13.numel
  shapeCasts_S7168x13_S7168x13 : S7168x13.ShapeCasts S7168x13
  transposes_S7168x13_p1_0_S13x7168 : S7168x13.Transposes [1, 0] S13x7168
  slices_S13x7168_o0_0_S4x7168 : S13x7168.Slices ![0, 0] S4x7168
  slices_S13x7168_o5_0_S4x7168 : S13x7168.Slices ![5, 0] S4x7168
  slices_S13x7168_o4_0_S1x7168 : S13x7168.Slices ![4, 0] S1x7168
  slices_S13x7168_o9_0_S1x7168 : S13x7168.Slices ![9, 0] S1x7168
  slices_S13x7168_o10_0_S3x7168 : S13x7168.Slices ![10, 0] S3x7168
  concatenates_S4x7168_S4x7168_S1x7168_S1x7168_S3x7168_S13x7168_d0 : Shape.Concatenates [S4x7168, S4x7168, S1x7168, S1x7168, S3x7168] S13x7168 0
  slices_S13x7168_o8_0_S1x7168 : S13x7168.Slices ![8, 0] S1x7168
  shapeCasts_S1x7168_S7168 : S1x7168.ShapeCasts S7168
  natLt_1_32 : 1 < 32
  slices_S13x7168_o4_0_S4x7168 : S13x7168.Slices ![4, 0] S4x7168
  slices_S4x7168_o0_0_S1x7168 : S4x7168.Slices ![0, 0] S1x7168
  slices_S4x7168_o1_0_S1x7168 : S4x7168.Slices ![1, 0] S1x7168
  slices_S4x7168_o2_0_S1x7168 : S4x7168.Slices ![2, 0] S1x7168
  slices_S4x7168_o3_0_S1x7168 : S4x7168.Slices ![3, 0] S1x7168
  slices_S4x7168_o0_0_S2x7168 : S4x7168.Slices ![0, 0] S2x7168
  reduces_S2x7168_S7168 : S2x7168.Reduces [0] S7168
  slices_S4x7168_o2_0_S2x7168 : S4x7168.Slices ![2, 0] S2x7168
  shapeCasts_S7168_S1x7168 : S7168.ShapeCasts S1x7168
  reduces_S1x7168_S1 : S1x7168.Reduces [1] S1
  shapeCasts_S1_S1x1 : S1.ShapeCasts S1x1
  inpos_S1x1_p0_0 : ∀ a, (![0, 0] : Fin 2 → Nat) a < S1x1.size a
  broadcasts_S1x7168_S3x7168 : S1x7168.Broadcasts S3x7168
  shapeCasts_S3x7168_S1x3x7168 : S3x7168.ShapeCasts S1x3x7168
  reduces_S1x3x7168_S1 : S1x3x7168.Reduces [1, 2] S1
  shapeCasts_S1_S1x1x1 : S1.ShapeCasts S1x1x1
  inpos_S1x1x1_p0_0_0 : ∀ a, (![0, 0, 0] : Fin 3 → Nat) a < S1x1x1.size a
  shapeCasts_S1x8x128_S1x8x128 : S1x8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7168x13.size a ≤ S1605632x13.size a
  hwx0_0 : ∀ i : grid0.Coords, EltTy.bits .f32 = 32 ∨ (Rect.block (s := S1605632x13) S7168x13.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S7168x13.size a ≤ S1605632x13.size a
  hwx0_1 : ∀ i : grid0.Coords, EltTy.bits .f32 = 32 ∨ (Rect.block (s := S1605632x13) S7168x13.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S2x8x128.size a
  hwx0_5 : ∀ i : grid0.Coords, EltTy.bits .f32 = 32 ∨ (Rect.block (s := S2x8x128) S1x8x128.size (cc0_transform_5 i) (hinb0_5 i)).WholeWords (EltTy.packing .f32)

variable [Facts₀]

abbrev win0_0 : Pipeline.Window sig grid0 :=
  Pipeline.Window.ofSpec (Memref.whole main_v0) S7168x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S7168x13.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_3) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x7x7x13 : Shape := ⟨4, ![32768, 7, 7, 13]⟩
abbrev S32768x7x7x1 : Shape := ⟨4, ![32768, 7, 7, 1]⟩
abbrev S32768x7x7 : Shape := ⟨3, ![32768, 7, 7]⟩
abbrev S_ : Shape := ⟨0, ![]⟩
abbrev S32768x7x7x4 : Shape := ⟨4, ![32768, 7, 7, 4]⟩
abbrev S32768x7x7x2 : Shape := ⟨4, ![32768, 7, 7, 2]⟩
abbrev S32768x7x7x3 : Shape := ⟨4, ![32768, 7, 7, 3]⟩

abbrev nBuf : Space → Nat
  | .hbm => 289
  | .vmem => 0
  | .smem => 0
  | _ => 0

abbrev hbmTy0_0 (i : Nat) : BufTy := match i % 128 with
  | 0 => ⟨S32768x7x7x13, .f32⟩
  | 1 => ⟨S32768x7x7x13, .f32⟩
  | 2 => ⟨S32768x7x7x1, .f32⟩
  | 3 => ⟨S32768x7x7, .f32⟩
  | 4 => ⟨S_, .f32⟩
  | 5 => ⟨S32768x7x7, .f32⟩
  | 6 => ⟨S32768x7x7, .i1⟩
  | 7 => ⟨S32768x7x7, .f32⟩
  | 8 => ⟨S32768x7x7x4, .f32⟩
  | 9 => ⟨S32768x7x7x4, .f32⟩
  | 10 => ⟨S32768x7x7x4, .f32⟩
  | 11 => ⟨S32768x7x7x4, .f32⟩
  | 12 => ⟨S32768x7x7x1, .f32⟩
  | 13 => ⟨S32768x7x7, .f32⟩
  | 14 => ⟨S_, .f32⟩
  | 15 => ⟨S32768x7x7, .f32⟩
  | 16 => ⟨S32768x7x7, .f32⟩
  | 17 => ⟨S32768x7x7x1, .f32⟩
  | 18 => ⟨S32768x7x7, .f32⟩
  | 19 => ⟨S_, .f32⟩
  | 20 => ⟨S32768x7x7, .f32⟩
  | 21 => ⟨S32768x7x7, .f32⟩
  | 22 => ⟨S32768x7x7x1, .f32⟩
  | 23 => ⟨S32768x7x7, .f32⟩
  | 24 => ⟨S_, .f32⟩
  | 25 => ⟨S32768x7x7, .f32⟩
  | 26 => ⟨S32768x7x7, .f32⟩
  | 27 => ⟨S32768x7x7x1, .f32⟩
  | 28 => ⟨S32768x7x7, .f32⟩
  | 29 => ⟨S_, .f32⟩
  | 30 => ⟨S32768x7x7, .f32⟩
  | 31 => ⟨S32768x7x7, .f32⟩
  | 32 => ⟨S32768x7x7x1, .f32⟩
  | 33 => ⟨S32768x7x7, .f32⟩
  | 34 => ⟨S_, .f32⟩
  | 35 => ⟨S32768x7x7, .f32⟩
  | 36 => ⟨S32768x7x7, .f32⟩
  | 37 => ⟨S32768x7x7x1, .f32⟩
  | 38 => ⟨S32768x7x7, .f32⟩
  | 39 => ⟨S_, .f32⟩
  | 40 => ⟨S32768x7x7, .f32⟩
  | 41 => ⟨S32768x7x7, .f32⟩
  | 42 => ⟨S32768x7x7x1, .f32⟩
  | 43 => ⟨S32768x7x7, .f32⟩
  | 44 => ⟨S_, .f32⟩
  | 45 => ⟨S32768x7x7, .f32⟩
  | 46 => ⟨S32768x7x7, .f32⟩
  | 47 => ⟨S32768x7x7x1, .f32⟩
  | 48 => ⟨S32768x7x7, .f32⟩
  | 49 => ⟨S_, .f32⟩
  | 50 => ⟨S32768x7x7, .f32⟩
  | 51 => ⟨S32768x7x7, .f32⟩
  | 52 => ⟨S_, .f32⟩
  | 53 => ⟨S32768x7x7, .f32⟩
  | 54 => ⟨S32768x7x7, .f32⟩
  | 55 => ⟨S32768x7x7, .f32⟩
  | 56 => ⟨S_, .f32⟩
  | 57 => ⟨S32768x7x7, .f32⟩
  | 58 => ⟨S32768x7x7, .f32⟩
  | 59 => ⟨S32768x7x7, .f32⟩
  | 60 => ⟨S32768x7x7, .f32⟩
  | 61 => ⟨S_, .f32⟩
  | 62 => ⟨S32768x7x7, .f32⟩
  | 63 => ⟨S32768x7x7, .f32⟩
  | 64 => ⟨S32768x7x7, .f32⟩
  | 65 => ⟨S_, .f32⟩
  | 66 => ⟨S32768x7x7, .f32⟩
  | 67 => ⟨S32768x7x7, .f32⟩
  | 68 => ⟨S32768x7x7, .f32⟩
  | 69 => ⟨S32768x7x7, .f32⟩
  | 70 => ⟨S_, .f32⟩
  | 71 => ⟨S32768x7x7, .f32⟩
  | 72 => ⟨S32768x7x7, .f32⟩
  | 73 => ⟨S32768x7x7, .f32⟩
  | 74 => ⟨S_, .f32⟩
  | 75 => ⟨S32768x7x7, .f32⟩
  | 76 => ⟨S32768x7x7, .f32⟩
  | 77 => ⟨S32768x7x7, .f32⟩
  | 78 => ⟨S32768x7x7, .f32⟩
  | 79 => ⟨S_, .f32⟩
  | 80 => ⟨S32768x7x7, .f32⟩
  | 81 => ⟨S32768x7x7, .f32⟩
  | 82 => ⟨S32768x7x7, .f32⟩
  | 83 => ⟨S_, .f32⟩
  | 84 => ⟨S32768x7x7, .f32⟩
  | 85 => ⟨S32768x7x7, .f32⟩
  | 86 => ⟨S32768x7x7, .f32⟩
  | 87 => ⟨S32768x7x7, .f32⟩
  | 88 => ⟨S32768x7x7, .i1⟩
  | 89 => ⟨S32768x7x7, .i1⟩
  | 90 => ⟨S32768x7x7, .i1⟩
  | 91 => ⟨S32768x7x7, .f32⟩
  | 92 => ⟨S32768x7x7, .f32⟩
  | 93 => ⟨S32768x7x7, .f32⟩
  | 94 => ⟨S32768x7x7, .f32⟩
  | 95 => ⟨S32768x7x7, .f32⟩
  | 96 => ⟨S32768x7x7, .f32⟩
  | 97 => ⟨S32768x7x7, .f32⟩
  | 98 => ⟨S_, .f32⟩
  | 99 => ⟨S_, .f32⟩
  | 100 => ⟨S32768x7x7, .f32⟩
  | 101 => ⟨S32768x7x7, .f32⟩
  | 102 => ⟨S32768x7x7, .f32⟩
  | 103 => ⟨S_, .f32⟩
  | 104 => ⟨S_, .f32⟩
  | 105 => ⟨S32768x7x7, .f32⟩
  | 106 => ⟨S32768x7x7, .f32⟩
  | 107 => ⟨S32768x7x7x1, .f32⟩
  | 108 => ⟨S32768x7x7, .f32⟩
  | 109 => ⟨S_, .f32⟩
  | 110 => ⟨S32768x7x7, .f32⟩
  | 111 => ⟨S32768x7x7, .f32⟩
  | 112 => ⟨S32768x7x7x1, .f32⟩
  | 113 => ⟨S32768x7x7, .f32⟩
  | 114 => ⟨S_, .f32⟩
  | 115 => ⟨S32768x7x7, .f32⟩
  | 116 => ⟨S32768x7x7, .f32⟩
  | 117 => ⟨S32768x7x7x1, .f32⟩
  | 118 => ⟨S32768x7x7, .f32⟩
  | 119 => ⟨S_, .f32⟩
  | 120 => ⟨S32768x7x7, .f32⟩
  | 121 => ⟨S32768x7x7, .f32⟩
  | 122 => ⟨S32768x7x7x1, .f32⟩
  | 123 => ⟨S32768x7x7, .f32⟩
  | 124 => ⟨S_, .f32⟩
  | 125 => ⟨S32768x7x7, .f32⟩
  | 126 => ⟨S32768x7x7, .f32⟩
  | 127 => ⟨S32768x7x7x1, .f32⟩
  | _ => ⟨S32768x7x7x13, .f32⟩

abbrev hbmTy0_1 (i : Nat) : BufTy := match i % 128 with
  | 0 => ⟨S32768x7x7, .f32⟩
  | 1 => ⟨S_, .f32⟩
  | 2 => ⟨S32768x7x7, .f32⟩
  | 3 => ⟨S32768x7x7, .f32⟩
  | 4 => ⟨S32768x7x7x1, .f32⟩
  | 5 => ⟨S32768x7x7, .f32⟩
  | 6 => ⟨S_, .f32⟩
  | 7 => ⟨S32768x7x7, .f32⟩
  | 8 => ⟨S32768x7x7, .f32⟩
  | 9 => ⟨S32768x7x7x1, .f32⟩
  | 10 => ⟨S32768x7x7, .f32⟩
  | 11 => ⟨S_, .f32⟩
  | 12 => ⟨S32768x7x7, .f32⟩
  | 13 => ⟨S32768x7x7, .f32⟩
  | 14 => ⟨S32768x7x7x1, .f32⟩
  | 15 => ⟨S32768x7x7, .f32⟩
  | 16 => ⟨S_, .f32⟩
  | 17 => ⟨S32768x7x7, .f32⟩
  | 18 => ⟨S32768x7x7, .f32⟩
  | 19 => ⟨S_, .f32⟩
  | 20 => ⟨S32768x7x7, .f32⟩
  | 21 => ⟨S32768x7x7, .f32⟩
  | 22 => ⟨S32768x7x7, .f32⟩
  | 23 => ⟨S_, .f32⟩
  | 24 => ⟨S32768x7x7, .f32⟩
  | 25 => ⟨S32768x7x7, .f32⟩
  | 26 => ⟨S32768x7x7, .f32⟩
  | 27 => ⟨S32768x7x7, .f32⟩
  | 28 => ⟨S_, .f32⟩
  | 29 => ⟨S32768x7x7, .f32⟩
  | 30 => ⟨S32768x7x7, .f32⟩
  | 31 => ⟨S32768x7x7, .f32⟩
  | 32 => ⟨S_, .f32⟩
  | 33 => ⟨S32768x7x7, .f32⟩
  | 34 => ⟨S32768x7x7, .f32⟩
  | 35 => ⟨S32768x7x7, .f32⟩
  | 36 => ⟨S32768x7x7, .f32⟩
  | 37 => ⟨S_, .f32⟩
  | 38 => ⟨S32768x7x7, .f32⟩
  | 39 => ⟨S32768x7x7, .f32⟩
  | 40 => ⟨S32768x7x7, .f32⟩
  | 41 => ⟨S_, .f32⟩
  | 42 => ⟨S32768x7x7, .f32⟩
  | 43 => ⟨S32768x7x7, .f32⟩
  | 44 => ⟨S32768x7x7, .f32⟩
  | 45 => ⟨S32768x7x7, .f32⟩
  | 46 => ⟨S_, .f32⟩
  | 47 => ⟨S32768x7x7, .f32⟩
  | 48 => ⟨S32768x7x7, .f32⟩
  | 49 => ⟨S32768x7x7, .f32⟩
  | 50 => ⟨S_, .f32⟩
  | 51 => ⟨S32768x7x7, .f32⟩
  | 52 => ⟨S32768x7x7, .f32⟩
  | 53 => ⟨S32768x7x7, .f32⟩
  | 54 => ⟨S32768x7x7, .f32⟩
  | 55 => ⟨S32768x7x7, .i1⟩
  | 56 => ⟨S32768x7x7, .i1⟩
  | 57 => ⟨S32768x7x7, .i1⟩
  | 58 => ⟨S32768x7x7, .f32⟩
  | 59 => ⟨S32768x7x7, .f32⟩
  | 60 => ⟨S32768x7x7, .f32⟩
  | 61 => ⟨S32768x7x7, .f32⟩
  | 62 => ⟨S32768x7x7, .f32⟩
  | 63 => ⟨S32768x7x7, .f32⟩
  | 64 => ⟨S32768x7x7, .f32⟩
  | 65 => ⟨S_, .f32⟩
  | 66 => ⟨S_, .f32⟩
  | 67 => ⟨S32768x7x7, .f32⟩
  | 68 => ⟨S32768x7x7, .f32⟩
  | 69 => ⟨S32768x7x7, .f32⟩
  | 70 => ⟨S_, .f32⟩
  | 71 => ⟨S_, .f32⟩
  | 72 => ⟨S32768x7x7, .f32⟩
  | 73 => ⟨S32768x7x7, .f32⟩
  | 74 => ⟨S32768x7x7x2, .f32⟩
  | 75 => ⟨S32768x7x7x2, .f32⟩
  | 76 => ⟨S32768x7x7x2, .f32⟩
  | 77 => ⟨S32768x7x7x2, .f32⟩
  | 78 => ⟨S32768x7x7x2, .f32⟩
  | 79 => ⟨S32768x7x7x2, .f32⟩
  | 80 => ⟨S32768x7x7x2, .f32⟩
  | 81 => ⟨S32768x7x7x2, .f32⟩
  | 82 => ⟨S32768x7x7x2, .f32⟩
  | 83 => ⟨S32768x7x7x2, .f32⟩
  | 84 => ⟨S32768x7x7x2, .f32⟩
  | 85 => ⟨S_, .f32⟩
  | 86 => ⟨S32768x7x7, .f32⟩
  | 87 => ⟨S_, .f32⟩
  | 88 => ⟨S32768x7x7, .f32⟩
  | 89 => ⟨S32768x7x7, .f32⟩
  | 90 => ⟨S32768x7x7x2, .f32⟩
  | 91 => ⟨S32768x7x7x2, .f32⟩
  | 92 => ⟨S32768x7x7x2, .f32⟩
  | 93 => ⟨S32768x7x7x2, .f32⟩
  | 94 => ⟨S_, .f32⟩
  | 95 => ⟨S32768x7x7, .f32⟩
  | 96 => ⟨S_, .f32⟩
  | 97 => ⟨S32768x7x7, .f32⟩
  | 98 => ⟨S32768x7x7, .f32⟩
  | 99 => ⟨S32768x7x7, .f32⟩
  | 100 => ⟨S32768x7x7x2, .f32⟩
  | 101 => ⟨S32768x7x7x2, .f32⟩
  | 102 => ⟨S32768x7x7x2, .f32⟩
  | 103 => ⟨S_, .f32⟩
  | 104 => ⟨S32768x7x7, .f32⟩
  | 105 => ⟨S_, .f32⟩
  | 106 => ⟨S32768x7x7, .f32⟩
  | 107 => ⟨S32768x7x7, .f32⟩
  | 108 => ⟨S32768x7x7x2, .f32⟩
  | 109 => ⟨S32768x7x7x2, .f32⟩
  | 110 => ⟨S32768x7x7x2, .f32⟩
  | 111 => ⟨S32768x7x7x2, .f32⟩
  | 112 => ⟨S_, .f32⟩
  | 113 => ⟨S32768x7x7, .f32⟩
  | 114 => ⟨S_, .f32⟩
  | 115 => ⟨S32768x7x7, .f32⟩
  | 116 => ⟨S32768x7x7, .f32⟩
  | 117 => ⟨S32768x7x7, .f32⟩
  | 118 => ⟨S32768x7x7x1, .f32⟩
  | 119 => ⟨S32768x7x7, .f32⟩
  | 120 => ⟨S32768x7x7x1, .f32⟩
  | 121 => ⟨S32768x7x7, .f32⟩
  | 122 => ⟨S32768x7x7, .f32⟩
  | 123 => ⟨S32768x7x7, .f32⟩
  | 124 => ⟨S32768x7x7, .f32⟩
  | 125 => ⟨S_, .f32⟩
  | 126 => ⟨S32768x7x7, .f32⟩
  | 127 => ⟨S32768x7x7, .f32⟩
  | _ => ⟨S32768x7x7x13, .f32⟩

abbrev hbmTy0_2 (i : Nat) : BufTy := match i % 128 with
  | 0 => ⟨S32768x7x7, .f32⟩
  | 1 => ⟨S32768x7x7, .f32⟩
  | 2 => ⟨S32768x7x7, .f32⟩
  | 3 => ⟨S32768x7x7, .f32⟩
  | 4 => ⟨S_, .f32⟩
  | 5 => ⟨S32768x7x7, .f32⟩
  | 6 => ⟨S32768x7x7, .f32⟩
  | 7 => ⟨S32768x7x7, .f32⟩
  | 8 => ⟨S32768x7x7, .i1⟩
  | 9 => ⟨S32768x7x7, .f32⟩
  | 10 => ⟨S32768x7x7, .f32⟩
  | 11 => ⟨S32768x7x7, .f32⟩
  | 12 => ⟨S_, .f32⟩
  | 13 => ⟨S_, .f32⟩
  | 14 => ⟨S32768x7x7, .f32⟩
  | 15 => ⟨S_, .f32⟩
  | 16 => ⟨S_, .f32⟩
  | 17 => ⟨S_, .f32⟩
  | 18 => ⟨S_, .f32⟩
  | 19 => ⟨S32768x7x7x1, .f32⟩
  | 20 => ⟨S32768x7x7x3, .f32⟩
  | 21 => ⟨S32768x7x7x3, .f32⟩
  | 22 => ⟨S32768x7x7x3, .f32⟩
  | 23 => ⟨S32768x7x7x3, .f32⟩
  | 24 => ⟨S32768x7x7x3, .f32⟩
  | 25 => ⟨S32768x7x7x3, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | _ => ⟨S32768x7x7x13, .f32⟩

abbrev hbmTy (i : Nat) : BufTy := match i / 128 with
  | 0 => hbmTy0_0 i
  | 1 => hbmTy0_1 i
  | 2 => hbmTy0_2 i
  | _ => ⟨S32768x7x7x13, .f32⟩

abbrev bufTy : (tb : Table) → Fin (tcTables nBuf tb) → BufTy
  | .hbm, ⟨i, _⟩ => hbmTy i
  | _, _ => ⟨S32768x7x7x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_6 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_7 : Ref sig .tc := ⟨.hbm, 49, rfl⟩
abbrev main_v39 : Ref sig .tc := ⟨.hbm, 50, rfl⟩
abbrev main_v40 : Ref sig .tc := ⟨.hbm, 51, rfl⟩
abbrev main_cst_8 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_9 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_10 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_11 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_12 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_13 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_14 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_15 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_16 : Ref sig .tc := ⟨.hbm, 98, rfl⟩
abbrev main_call0_v0 : Ref sig .tc := ⟨.hbm, 99, rfl⟩
abbrev main_call0_v1 : Ref sig .tc := ⟨.hbm, 100, rfl⟩
abbrev main_v79 : Ref sig .tc := ⟨.hbm, 101, rfl⟩
abbrev main_v80 : Ref sig .tc := ⟨.hbm, 102, rfl⟩
abbrev main_cst_17 : Ref sig .tc := ⟨.hbm, 103, rfl⟩
abbrev main_call1_v0 : Ref sig .tc := ⟨.hbm, 104, rfl⟩
abbrev main_call1_v1 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_18 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_19 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_20 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_21 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_22 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_23 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_24 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_25 : Ref sig .tc := ⟨.hbm, 144, rfl⟩
abbrev main_v112 : Ref sig .tc := ⟨.hbm, 145, rfl⟩
abbrev main_v113 : Ref sig .tc := ⟨.hbm, 146, rfl⟩
abbrev main_cst_26 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_cst_27 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_cst_28 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_cst_29 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_cst_30 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_cst_31 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_cst_32 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_cst_33 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_cst_34 : Ref sig .tc := ⟨.hbm, 193, rfl⟩
abbrev main_call2_v0 : Ref sig .tc := ⟨.hbm, 194, rfl⟩
abbrev main_call2_v1 : Ref sig .tc := ⟨.hbm, 195, rfl⟩
abbrev main_v152 : Ref sig .tc := ⟨.hbm, 196, rfl⟩
abbrev main_v153 : Ref sig .tc := ⟨.hbm, 197, rfl⟩
abbrev main_cst_35 : Ref sig .tc := ⟨.hbm, 198, rfl⟩
abbrev main_call3_v0 : Ref sig .tc := ⟨.hbm, 199, rfl⟩
abbrev main_call3_v1 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_cst_36 : Ref sig .tc := ⟨.hbm, 213, rfl⟩
abbrev main_v166 : Ref sig .tc := ⟨.hbm, 214, rfl⟩
abbrev main_cst_37 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_cst_38 : Ref sig .tc := ⟨.hbm, 222, rfl⟩
abbrev main_v173 : Ref sig .tc := ⟨.hbm, 223, rfl⟩
abbrev main_cst_39 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_cst_40 : Ref sig .tc := ⟨.hbm, 231, rfl⟩
abbrev main_v180 : Ref sig .tc := ⟨.hbm, 232, rfl⟩
abbrev main_cst_41 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_cst_42 : Ref sig .tc := ⟨.hbm, 240, rfl⟩
abbrev main_v187 : Ref sig .tc := ⟨.hbm, 241, rfl⟩
abbrev main_cst_43 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_cst_44 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_cst_45 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_cst_46 : Ref sig .tc := ⟨.hbm, 268, rfl⟩
abbrev main_v211 : Ref sig .tc := ⟨.hbm, 269, rfl⟩
abbrev main_v212 : Ref sig .tc := ⟨.hbm, 270, rfl⟩
abbrev main_cst_47 : Ref sig .tc := ⟨.hbm, 271, rfl⟩
abbrev main_v213 : Ref sig .tc := ⟨.hbm, 272, rfl⟩
abbrev main_cst_48 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_cst_49 : Ref sig .tc := ⟨.hbm, 282, rfl⟩
abbrev main_v222 : Ref sig .tc := ⟨.hbm, 283, rfl⟩
abbrev main_cst_50 : Ref sig .tc := ⟨.hbm, 284, rfl⟩
abbrev main_v223 : Ref sig .tc := ⟨.hbm, 285, rfl⟩
abbrev main_v224 : Ref sig .tc := ⟨.hbm, 286, rfl⟩
abbrev main_cst_51 : Ref sig .tc := ⟨.hbm, 287, rfl⟩
abbrev main_v225 : Ref sig .tc := ⟨.hbm, 288, rfl⟩

abbrev nD : Nat := 1
abbrev τ : Topo := Topo.v7x

variable {F : FTy → Type} [FloatOps F]

class Facts₀ : Prop where
  slices_S32768x7x7x13_S32768x7x7x1_0_0_0_4 : S32768x7x7x13.Slices ![0, 0, 0, 4] S32768x7x7x1
  shapeCasts_S32768x7x7x1_S32768x7x7 : S32768x7x7x1.ShapeCasts S32768x7x7
  bcast_S_S32768x7x7 : S_.BroadcastsInDim S32768x7x7 (![] : Fin 0 → Fin S32768x7x7.rank)
  slices_S32768x7x7x13_S32768x7x7x4_0_0_0_0 : S32768x7x7x13.Slices ![0, 0, 0, 0] S32768x7x7x4
  slices_S32768x7x7x13_S32768x7x7x4_0_0_0_5 : S32768x7x7x13.Slices ![0, 0, 0, 5] S32768x7x7x4
  slices_S32768x7x7x4_S32768x7x7x1_0_0_0_0 : S32768x7x7x4.Slices ![0, 0, 0, 0] S32768x7x7x1
  slices_S32768x7x7x4_S32768x7x7x1_0_0_0_1 : S32768x7x7x4.Slices ![0, 0, 0, 1] S32768x7x7x1
  slices_S32768x7x7x4_S32768x7x7x1_0_0_0_2 : S32768x7x7x4.Slices ![0, 0, 0, 2] S32768x7x7x1
  slices_S32768x7x7x4_S32768x7x7x1_0_0_0_3 : S32768x7x7x4.Slices ![0, 0, 0, 3] S32768x7x7x1
  slices_S32768x7x7x4_S32768x7x7x2_0_0_0_0 : S32768x7x7x4.Slices ![0, 0, 0, 0] S32768x7x7x2
  reducesTo_S32768x7x7x2_S32768x7x7_d3 : S32768x7x7x2.ReducesTo [3] S32768x7x7
  h_S_ : 0 < S_.numel
  slices_S32768x7x7x4_S32768x7x7x2_0_0_0_2 : S32768x7x7x4.Slices ![0, 0, 0, 2] S32768x7x7x2
  slices_S32768x7x7x13_S32768x7x7x1_0_0_0_9 : S32768x7x7x13.Slices ![0, 0, 0, 9] S32768x7x7x1
  reducesTo_S32768x7x7_S_d0_1_2 : S32768x7x7.ReducesTo [0, 1, 2] S_
  bcast_S32768x7x7_S32768x7x7x1_0_1_2 : S32768x7x7.BroadcastsInDim S32768x7x7x1 (![0, 1, 2] : Fin 3 → Fin S32768x7x7x1.rank)
  slices_S32768x7x7x13_S32768x7x7x3_0_0_0_10 : S32768x7x7x13.Slices ![0, 0, 0, 10] S32768x7x7x3
  bcast_S32768x7x7x1_S32768x7x7x3_0_1_2_3 : S32768x7x7x1.BroadcastsInDim S32768x7x7x3 (![0, 1, 2, 3] : Fin 4 → Fin S32768x7x7x3.rank)
  reducesTo_S32768x7x7x3_S_d0_1_2_3 : S32768x7x7x3.ReducesTo [0, 1, 2, 3] S_

variable [Facts₀]

class Facts : Prop extends Facts₀ where

variable [Facts]
-- ==== Proof.Body.lean ====
/-
  The values the kernel body computes at one grid point, as functions of the two blocks it
  loads: `x0`, 7168 predicted cells, and `x1`, the 7168 target cells, each a [7168, 13] block.
  The body's arithmetic is the generated payloads; here they are composed in the body's order,
  so that what the body adds into each of its four accumulators has a name.
-/
import proofs.«408613_j41755672051846_3_alg».proof.Proof.Gen.KernelIdeal.Skeleton

noncomputable section

namespace Cert.KernelIdeal.Gen

open Idealize.ShloMosaic Idealize.SL.Sem

variable {F : FTy → Type} [FloatOps F]

/-- The first box pair's intersection over union, one entry per cell of the block. -/
def bIou1 (x0 x1 : Vec F S7168x13 .f32) : FVec F S7168 .f32 :=
  let v29 := k0_pay11 x1
  let v34 := k0_pay13 x0
  let v38 := k0_pay14 x0
  let v42 := k0_pay15 x0
  let v44 := k0_pay16 x0
  let v45 := k0_pay17 (F := F)
  let v46 := k0_pay18 v44 v45
  k0_pay28 v42 v46 (k0_pay21 v29) (k0_pay22 v29) (k0_pay23 v29 v34 v42) (k0_pay24 v29 v38 v44 v45)
    (k0_pay25 v29 v34 v42) (k0_pay26 v29 v38 v44 v45) (k0_pay27 v29 v34 v38 v42 v44 v45)

/-- The second box pair's intersection over union. -/
def bIou2 (x0 x1 : Vec F S7168x13 .f32) : FVec F S7168 .f32 :=
  let v28 := k0_pay10 x0
  let v30 := k0_pay12 x1
  k0_pay39 (k0_pay29 v28) (k0_pay30 v28) (k0_pay31 v28) (k0_pay32 v28) (k0_pay33 v30) (k0_pay34 v30)
    (k0_pay35 v30) (k0_pay36 v30) (k0_pay37 v28) (k0_pay38 (F := F))

/-- The block's localisation sum: what the body adds into its first accumulator. -/
def bLoc (x0 x1 : Vec F S7168x13 .f32) : F .f32 :=
  k0_pay43 (k0_pay8 x1) (k0_pay9 x0) (k0_pay10 x0) (k0_pay11 x1) (k0_pay12 x1) (bIou1 x0 x1) (bIou2 x0 x1)
    (k0_pay40 (k0_pay12 x1)) (k0_pay41 (k0_pay9 x0) (k0_pay11 x1))

/-- The block's masked objectness terms, one row of 7168, which the body sums into its second accumulator. -/
def bObj (x0 x1 : Vec F S7168x13 .f32) : FVec F S1x7168 .f32 :=
  k0_pay44 (k0_pay6 x0) (k0_pay8 x1) (bIou1 x0 x1) (bIou2 x0 x1)

/-- The four accumulators after the body, from what they held before it (`a2` … `a5`). -/
def bOut2 (x0 x1 : Vec F S7168x13 .f32) (a2 : Vec F S1x8x128 .f32) : FVec F S1x8x128 .f32 := k0_pay46 (bLoc x0 x1) a2
def bOut3 (x0 x1 : Vec F S7168x13 .f32) (a3 : Vec F S1x8x128 .f32) : FVec F S1x8x128 .f32 := k0_pay47 (bObj x0 x1) a3
def bOut4 (x0 x1 : Vec F S7168x13 .f32) (a4 : Vec F S1x8x128 .f32) : FVec F S1x8x128 .f32 :=
  k0_pay48 (k0_pay6 x0) (k0_pay7 x1) (k0_pay8 x1) a4
def bOut5 (x1 : Vec F S7168x13 .f32) (a5 : Vec F S1x8x128 .f32) : FVec F S1x8x128 .f32 :=
  k0_pay1 (k0_pay45 (k0_pay8 x1)) a5

end Cert.KernelIdeal.Gen

end
-- ==== Proof.KernelAcc.lean ====
/-
  What the kernel's run leaves in its results, in closed form.

  The body has two cases. At the first grid point of an outer index it stores a zero block into
  each of its four accumulator blocks, reads it back, and adds the sum over the point's 7168 cells;
  at every other point it reads the accumulator as the point before left it and adds the point's
  sum. In both cases each accumulator ends as one covering store, so the block it holds is that
  store's value. By induction along the 112 points of an outer index the accumulator block at the
  last point, where it is written back, holds zero plus the sum of the 112 point sums; the two
  blocks so written make up each [2, 8, 128] result array, and the host operations after the
  region add entry (o, 0, 0) of the two blocks, scale the first total by 5 and divide the third
  by three times the fourth.

  The point sums themselves are left as parameters here (`A2` … `A5` with the equations
  `hb2` … `hb5`: what the accumulate step adds, as a function of the two loaded blocks); the
  cell-by-cell reading of the body's arithmetic supplies them.
-/
import proofs.«408613_j41755672051846_3_alg».proof.Proof.Gen.KernelIdeal.Frame
import proofs.«408613_j41755672051846_3_alg».proof.Proof.Body
import Idealize.ShloMosaic.Lib.Pipeline.Value
import Idealize.ShloMosaic.Lib.StableHlo.Run
import Idealize.ShloMosaic.Lib.IdealHost
import Idealize.ShloMosaic.Lib.ValueIdxRank1
import Idealize.ShloMosaic.PureOps.Ideal.Laws
import Idealize.ShloMosaic.Lib.Tactic

set_option maxRecDepth 16384

noncomputable section

namespace Cert.KernelIdeal.Gen

open Idealize.ShloMosaic Idealize.ShloMosaic.TcCoe Idealize.ShloMosaic.Tactic Idealize.SL.Sem
open Idealize.ShloMosaic.Pipeline (Dat)

section Pieces

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A later point of an outer index: the previous contents plus this point's sum -/

theorem out_B_2 (c : Dev nD) (i : grid0.Coords) (arg2 : Memref sig .tc .vmem S7168x13 .f32) (harg2 : arg2.IsWhole) (arg3 : Memref sig .tc .vmem S7168x13 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 x1 : Vec F S7168x13 .f32) (xo2 xo3 xo4 xo5 : Vec F S1x8x128 .f32) :
    out0_B_2 c i arg2 harg2 arg3 harg3 arg4 harg4 arg5 harg5 arg6 harg6 arg7 harg7 hc0 x0 x1 xo2 xo3 xo4 xo5 = bOut2 x0 x1 xo2 := by
  unfold out0_B_2
  rw [View.read_writes_eq_canon _ _ _ (cover0_B_2 c i arg2 harg2 arg3 harg3 arg4 harg4 arg5 harg5 arg6 harg6 arg7 harg7 hc0 x0 x1 xo2 xo3 xo4 xo5)]
  unfold kernelRun0_B
  dsimp only
  sl_unfold_words
  rw [View.canon_unit_zero hz3]
  simp only [View.readAt_eq_ld, harg2.read_unread, harg3.read_unread, harg4.read_unread,
    View.ld_unit_zero (S := S7168x13) hz2, View.ld_unit_zero (S := S1x8x128) hz3]
  rfl

theorem out_B_3 (c : Dev nD) (i : grid0.Coords) (arg2 : Memref sig .tc .vmem S7168x13 .f32) (harg2 : arg2.IsWhole) (arg3 : Memref sig .tc .vmem S7168x13 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 x1 : Vec F S7168x13 .f32) (xo2 xo3 xo4 xo5 : Vec F S1x8x128 .f32) :
    out0_B_3 c i arg2 harg2 arg3 harg3 arg4 harg4 arg5 harg5 arg6 harg6 arg7 harg7 hc0 x0 x1 xo2 xo3 xo4 xo5 = bOut3 x0 x1 xo3 := by
  unfold out0_B_3
  rw [View.read_writes_eq_canon _ _ _ (cover0_B_3 c i arg2 harg2 arg3 harg3 arg4 harg4 arg5 harg5 arg6 harg6 arg7 harg7 hc0 x0 x1 xo2 xo3 xo4 xo5)]
  unfold kernelRun0_B
  dsimp only
  sl_unfold_words
  rw [View.canon_unit_zero hz3]
  simp only [View.readAt_eq_ld, harg2.read_unread, harg3.read_unread, harg5.read_unread,
    View.ld_unit_zero (S := S7168x13) hz2, View.ld_unit_zero (S := S1x8x128) hz3]
  rfl

theorem out_B_4 (c : Dev nD) (i : grid0.Coords) (arg2 : Memref sig .tc .vmem S7168x13 .f32) (harg2 : arg2.IsWhole) (arg3 : Memref sig .tc .vmem S7168x13 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 x1 : Vec F S7168x13 .f32) (xo2 xo3 xo4 xo5 : Vec F S1x8x128 .f32) :
    out0_B_4 c i arg2 harg2 arg3 harg3 arg4 harg4 arg5 harg5 arg6 harg6 arg7 harg7 hc0 x0 x1 xo2 xo3 xo4 xo5 = bOut4 x0 x1 xo4 := by
  unfold out0_B_4
  rw [View.read_writes_eq_canon _ _ _ (cover0_B_4 c i arg2 harg2 arg3 harg3 arg4 harg4 arg5 harg5 arg6 harg6 arg7 harg7 hc0 x0 x1 xo2 xo3 xo4 xo5)]
  unfold kernelRun0_B
  dsimp only
  sl_unfold_words
  rw [View.canon_unit_zero hz3]
  simp only [View.readAt_eq_ld, harg2.read_unread, harg3.read_unread, harg6.read_unread,
    View.ld_unit_zero (S := S7168x13) hz2, View.ld_unit_zero (S := S1x8x128) hz3]
  rfl

theorem out_B_5 (c : Dev nD) (i : grid0.Coords) (arg2 : Memref sig .tc .vmem S7168x13 .f32) (harg2 : arg2.IsWhole) (arg3 : Memref sig .tc .vmem S7168x13 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 x1 : Vec F S7168x13 .f32) (xo2 xo3 xo4 xo5 : Vec F S1x8x128 .f32) :
    out0_B_5 c i arg2 harg2 arg3 harg3 arg4 harg4 arg5 harg5 arg6 harg6 arg7 harg7 hc0 x0 x1 xo2 xo3 xo4 xo5 = bOut5 x1 xo5 := by
  unfold out0_B_5
  rw [View.read_writes_eq_canon _ _ _ (cover0_B_5 c i arg2 harg2 arg3 harg3 arg4 harg4 arg5 harg5 arg6 harg6 arg7 harg7 hc0 x0 x1 xo2 xo3 xo4 xo5)]
  unfold kernelRun0_B
  dsimp only
  sl_unfold_words
  rw [View.canon_unit_zero hz3]
  simp only [View.readAt_eq_ld, harg2.read_unread, harg3.read_unread, harg7.read_unread,
    View.ld_unit_zero (S := S7168x13) hz2, View.ld_unit_zero (S := S1x8x128) hz3]
  rfl

/-! ## The first point of an outer index: the zero block plus this point's sum -/

theorem out_A_2 (c : Dev nD) (i : grid0.Coords) (arg2 : Memref sig .tc .vmem S7168x13 .f32) (harg2 : arg2.IsWhole) (arg3 : Memref sig .tc .vmem S7168x13 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 x1 : Vec F S7168x13 .f32) :
    out0_A_2 c i arg2 harg2 arg3 harg3 arg4 harg4 arg5 harg5 arg6 harg6 arg7 harg7 hc0 x0 x1 = bOut2 x0 x1 (k0_pay2 (F := F)) := by
  unfold out0_A_2
  rw [View.read_writes_eq_canon _ _ _ (cover0_A_2 c i arg2 harg2 arg3 harg3 arg4 harg4 arg5 harg5 arg6 harg6 arg7 harg7 hc0 x0 x1)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread,
    View.ld_unit_zero (S := S7168x13) hz2, View.ld_unit_zero (S := S1x8x128) hz3]
  rfl

theorem out_A_3 (c : Dev nD) (i : grid0.Coords) (arg2 : Memref sig .tc .vmem S7168x13 .f32) (harg2 : arg2.IsWhole) (arg3 : Memref sig .tc .vmem S7168x13 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 x1 : Vec F S7168x13 .f32) :
    out0_A_3 c i arg2 harg2 arg3 harg3 arg4 harg4 arg5 harg5 arg6 harg6 arg7 harg7 hc0 x0 x1 = bOut3 x0 x1 (k0_pay3 (F := F)) := by
  unfold out0_A_3
  rw [View.read_writes_eq_canon _ _ _ (cover0_A_3 c i arg2 harg2 arg3 harg3 arg4 harg4 arg5 harg5 arg6 harg6 arg7 harg7 hc0 x0 x1)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread,
    View.ld_unit_zero (S := S7168x13) hz2, View.ld_unit_zero (S := S1x8x128) hz3]
  rfl

theorem out_A_4 (c : Dev nD) (i : grid0.Coords) (arg2 : Memref sig .tc .vmem S7168x13 .f32) (harg2 : arg2.IsWhole) (arg3 : Memref sig .tc .vmem S7168x13 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 x1 : Vec F S7168x13 .f32) :
    out0_A_4 c i arg2 harg2 arg3 harg3 arg4 harg4 arg5 harg5 arg6 harg6 arg7 harg7 hc0 x0 x1 = bOut4 x0 x1 (k0_pay4 (F := F)) := by
  unfold out0_A_4
  rw [View.read_writes_eq_canon _ _ _ (cover0_A_4 c i arg2 harg2 arg3 harg3 arg4 harg4 arg5 harg5 arg6 harg6 arg7 harg7 hc0 x0 x1)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread,
    View.ld_unit_zero (S := S7168x13) hz2, View.ld_unit_zero (S := S1x8x128) hz3]
  rfl

theorem out_A_5 (c : Dev nD) (i : grid0.Coords) (arg2 : Memref sig .tc .vmem S7168x13 .f32) (harg2 : arg2.IsWhole) (arg3 : Memref sig .tc .vmem S7168x13 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 x1 : Vec F S7168x13 .f32) :
    out0_A_5 c i arg2 harg2 arg3 harg3 arg4 harg4 arg5 harg5 arg6 harg6 arg7 harg7 hc0 x0 x1 = bOut5 x1 (k0_pay5 (F := F)) := by
  unfold out0_A_5
  rw [View.read_writes_eq_canon _ _ _ (cover0_A_5 c i arg2 harg2 arg3 harg3 arg4 harg4 arg5 harg5 arg6 harg6 arg7 harg7 hc0 x0 x1)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread,
    View.ld_unit_zero (S := S7168x13) hz2, View.ld_unit_zero (S := S1x8x128) hz3]
  rfl

end Pieces

/-! ## A run of points that resets and then accumulates -/

/-- A point-indexed quantity that is `z + A n` at every multiple of `J` and the point before's
    plus `A n` at every other point is, `j` points into the run that starts at `J * q`, `z` plus
    the sum of the run's first `j + 1` addends. -/
theorem run_sum {ι M : Type*} [AddCommMonoid M] {N J : ℕ} (f : (n : ℕ) → n < N → ι → M) (z : M) (A : ℕ → M)
    (h0 : ∀ n (h : n < N), n % J = 0 → f n h = fun _ => z + A n)
    (hs : ∀ n (h : n + 1 < N), ¬(n + 1) % J = 0 →
      f (n + 1) h = fun y => f n (Nat.lt_of_succ_lt h) y + A (n + 1))
    (q : ℕ) : ∀ j, j < J → ∀ h : J * q + j < N,
      f (J * q + j) h = fun _ => z + ∑ s ∈ Finset.range (j + 1), A (J * q + s)
  | 0, _, h => by
    rw [h0 _ h (by rw [Nat.add_zero, Nat.mul_mod_right])]
    simp
  | j + 1, hj, h => by
    have hne : ¬(J * q + j + 1) % J = 0 := by
      rw [Nat.add_assoc, Nat.mul_add_mod, Nat.mod_eq_of_lt hj]; exact Nat.succ_ne_zero j
    refine (hs (J * q + j) h hne).trans ?_
    funext y
    rw [run_sum f z A h0 hs q j (Nat.lt_of_succ_lt hj) (Nat.lt_of_succ_lt h)]
    show z + _ + _ = z + _
    rw [Finset.sum_range_succ _ (j + 1), add_assoc]
    rfl

section Acc

variable (m : (ℓ : Loc nD τ sig) → Buf (Elt Ideal) ℓ) (ρ : Dev nD → PrngReg)
variable (A2 A3 A4 : Vec Ideal S7168x13 .f32 → Vec Ideal S7168x13 .f32 → Ideal .f32)
variable (A5 : Vec Ideal S7168x13 .f32 → Ideal .f32)

/-- The accumulate step of accumulator 2 adds `A2` of the two loaded blocks, at every entry. -/
abbrev Adds2 : Prop := ∀ (x0 x1 : Vec Ideal S7168x13 .f32) (a : Vec Ideal S1x8x128 .f32),
  bOut2 (F := Ideal) x0 x1 a = fun y => a y + A2 x0 x1
abbrev Adds3 : Prop := ∀ (x0 x1 : Vec Ideal S7168x13 .f32) (a : Vec Ideal S1x8x128 .f32),
  bOut3 (F := Ideal) x0 x1 a = fun y => a y + A3 x0 x1
abbrev Adds4 : Prop := ∀ (x0 x1 : Vec Ideal S7168x13 .f32) (a : Vec Ideal S1x8x128 .f32),
  bOut4 (F := Ideal) x0 x1 a = fun y => a y + A4 x0 x1
abbrev Adds5 : Prop := ∀ (x1 : Vec Ideal S7168x13 .f32) (a : Vec Ideal S1x8x128 .f32),
  bOut5 (F := Ideal) x1 a = fun y => a y + A5 x1

/-- The zero every accumulator is reset to. -/
abbrev z0 : Ideal .f32 := Ideal.ofBits .f32 0x00000000#32

/-- The blocks of predicted and of target cells that point `t` loads. -/
abbrev xp (c : Dev nD) (t : Fin cfg0.N) : Vec Ideal S7168x13 .f32 := iblk m c 0 t
abbrev xt (c : Dev nD) (t : Fin cfg0.N) : Vec Ideal S7168x13 .f32 := iblk m c 1 t

/-- What the four accumulators held after the point before `t`. -/
abbrev prevOuts (c : Dev nD) (t : Fin cfg0.N) :=
  outsAt0 m c (t.val - 1) (Nat.lt_of_le_of_lt (Nat.sub_le _ _) t.isLt)

/-! ## Each accumulator along the points of an outer index -/

/-- Point `n`'s addend for accumulator 2 (zero past the grid). -/
def pt2 (c : Dev nD) (n : ℕ) : Ideal .f32 := if h : n < cfg0.N then A2 (xp m c ⟨n, h⟩) (xt m c ⟨n, h⟩) else 0

theorem acc2_first (hb2 : Adds2 A2) (c : Dev nD) (t : Fin cfg0.N) (h0 : t.val % 112 = 0) :
    (outsAt0 m c t.val t.isLt).1 = fun _ => z0 + pt2 m A2 c t.val := by
  rw [outsAt0_A m c t h0]
  dsimp only
  refine (out_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t)).trans ?_
  rw [hb2]
  funext y
  unfold pt2
  rw [dif_pos t.isLt]
  rfl

theorem acc2_step (hb2 : Adds2 A2) (c : Dev nD) (t : Fin cfg0.N) (h0 : ¬t.val % 112 = 0) :
    (outsAt0 m c t.val t.isLt).1
      = fun y => (prevOuts m c t).1 y + pt2 m A2 c t.val := by
  rw [outsAt0_B m c t h0]
  dsimp only
  refine (out_B_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t)
    (prevOuts m c t).1 (prevOuts m c t).2.1 (prevOuts m c t).2.2.1 (prevOuts m c t).2.2.2).trans ?_
  rw [hb2]
  funext y
  unfold pt2
  rw [dif_pos t.isLt]

/-- At the last point of an outer index accumulator 2 holds zero plus the 112 point sums. -/
theorem acc2_last (hb2 : Adds2 A2) (c : Dev nD) (t : Fin cfg0.N) (h111 : t.val % 112 = 111) :
    (outsAt0 m c t.val t.isLt).1
      = fun _ => z0 + ∑ s ∈ Finset.range 112, pt2 m A2 c (112 * (t.val / 112) + s) := by
  have e : 112 * (t.val / 112) + 111 = t.val := by omega
  have hlt : 112 * (t.val / 112) + 111 < cfg0.N := by rw [e]; exact t.isLt
  have same : ∀ (u : ℕ) (hu : u < cfg0.N), u = t.val →
      (outsAt0 m c u hu).1 = (outsAt0 m c t.val t.isLt).1 := fun u hu e => by subst e; rfl
  rw [← same _ hlt e]
  exact run_sum (N := cfg0.N) (J := 112) (fun n h => (outsAt0 m c n h).1) z0 (pt2 m A2 c)
    (fun n h h0 => acc2_first m A2 hb2 c ⟨n, h⟩ h0)
    (fun n h hne => acc2_step m A2 hb2 c ⟨n + 1, h⟩ hne)
    (t.val / 112) 111 (by omega) hlt

/-- Point `n`'s addend for accumulator 3 (zero past the grid). -/
def pt3 (c : Dev nD) (n : ℕ) : Ideal .f32 := if h : n < cfg0.N then A3 (xp m c ⟨n, h⟩) (xt m c ⟨n, h⟩) else 0

theorem acc3_first (hb3 : Adds3 A3) (c : Dev nD) (t : Fin cfg0.N) (h0 : t.val % 112 = 0) :
    (outsAt0 m c t.val t.isLt).2.1 = fun _ => z0 + pt3 m A3 c t.val := by
  rw [outsAt0_A m c t h0]
  dsimp only
  refine (out_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t)).trans ?_
  rw [hb3]
  funext y
  unfold pt3
  rw [dif_pos t.isLt]
  rfl

theorem acc3_step (hb3 : Adds3 A3) (c : Dev nD) (t : Fin cfg0.N) (h0 : ¬t.val % 112 = 0) :
    (outsAt0 m c t.val t.isLt).2.1
      = fun y => (prevOuts m c t).2.1 y + pt3 m A3 c t.val := by
  rw [outsAt0_B m c t h0]
  dsimp only
  refine (out_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t)
    (prevOuts m c t).1 (prevOuts m c t).2.1 (prevOuts m c t).2.2.1 (prevOuts m c t).2.2.2).trans ?_
  rw [hb3]
  funext y
  unfold pt3
  rw [dif_pos t.isLt]

/-- At the last point of an outer index accumulator 3 holds zero plus the 112 point sums. -/
theorem acc3_last (hb3 : Adds3 A3) (c : Dev nD) (t : Fin cfg0.N) (h111 : t.val % 112 = 111) :
    (outsAt0 m c t.val t.isLt).2.1
      = fun _ => z0 + ∑ s ∈ Finset.range 112, pt3 m A3 c (112 * (t.val / 112) + s) := by
  have e : 112 * (t.val / 112) + 111 = t.val := by omega
  have hlt : 112 * (t.val / 112) + 111 < cfg0.N := by rw [e]; exact t.isLt
  have same : ∀ (u : ℕ) (hu : u < cfg0.N), u = t.val →
      (outsAt0 m c u hu).2.1 = (outsAt0 m c t.val t.isLt).2.1 := fun u hu e => by subst e; rfl
  rw [← same _ hlt e]
  exact run_sum (N := cfg0.N) (J := 112) (fun n h => (outsAt0 m c n h).2.1) z0 (pt3 m A3 c)
    (fun n h h0 => acc3_first m A3 hb3 c ⟨n, h⟩ h0)
    (fun n h hne => acc3_step m A3 hb3 c ⟨n + 1, h⟩ hne)
    (t.val / 112) 111 (by omega) hlt

/-- Point `n`'s addend for accumulator 4 (zero past the grid). -/
def pt4 (c : Dev nD) (n : ℕ) : Ideal .f32 := if h : n < cfg0.N then A4 (xp m c ⟨n, h⟩) (xt m c ⟨n, h⟩) else 0

theorem acc4_first (hb4 : Adds4 A4) (c : Dev nD) (t : Fin cfg0.N) (h0 : t.val % 112 = 0) :
    (outsAt0 m c t.val t.isLt).2.2.1 = fun _ => z0 + pt4 m A4 c t.val := by
  rw [outsAt0_A m c t h0]
  dsimp only
  refine (out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t)).trans ?_
  rw [hb4]
  funext y
  unfold pt4
  rw [dif_pos t.isLt]
  rfl

theorem acc4_step (hb4 : Adds4 A4) (c : Dev nD) (t : Fin cfg0.N) (h0 : ¬t.val % 112 = 0) :
    (outsAt0 m c t.val t.isLt).2.2.1
      = fun y => (prevOuts m c t).2.2.1 y + pt4 m A4 c t.val := by
  rw [outsAt0_B m c t h0]
  dsimp only
  refine (out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t)
    (prevOuts m c t).1 (prevOuts m c t).2.1 (prevOuts m c t).2.2.1 (prevOuts m c t).2.2.2).trans ?_
  rw [hb4]
  funext y
  unfold pt4
  rw [dif_pos t.isLt]

/-- At the last point of an outer index accumulator 4 holds zero plus the 112 point sums. -/
theorem acc4_last (hb4 : Adds4 A4) (c : Dev nD) (t : Fin cfg0.N) (h111 : t.val % 112 = 111) :
    (outsAt0 m c t.val t.isLt).2.2.1
      = fun _ => z0 + ∑ s ∈ Finset.range 112, pt4 m A4 c (112 * (t.val / 112) + s) := by
  have e : 112 * (t.val / 112) + 111 = t.val := by omega
  have hlt : 112 * (t.val / 112) + 111 < cfg0.N := by rw [e]; exact t.isLt
  have same : ∀ (u : ℕ) (hu : u < cfg0.N), u = t.val →
      (outsAt0 m c u hu).2.2.1 = (outsAt0 m c t.val t.isLt).2.2.1 := fun u hu e => by subst e; rfl
  rw [← same _ hlt e]
  exact run_sum (N := cfg0.N) (J := 112) (fun n h => (outsAt0 m c n h).2.2.1) z0 (pt4 m A4 c)
    (fun n h h0 => acc4_first m A4 hb4 c ⟨n, h⟩ h0)
    (fun n h hne => acc4_step m A4 hb4 c ⟨n + 1, h⟩ hne)
    (t.val / 112) 111 (by omega) hlt

/-- Point `n`'s addend for accumulator 5 (zero past the grid). -/
def pt5 (c : Dev nD) (n : ℕ) : Ideal .f32 := if h : n < cfg0.N then A5 (xt m c ⟨n, h⟩) else 0

theorem acc5_first (hb5 : Adds5 A5) (c : Dev nD) (t : Fin cfg0.N) (h0 : t.val % 112 = 0) :
    (outsAt0 m c t.val t.isLt).2.2.2 = fun _ => z0 + pt5 m A5 c t.val := by
  rw [outsAt0_A m c t h0]
  dsimp only
  refine (out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t)).trans ?_
  rw [hb5]
  funext y
  unfold pt5
  rw [dif_pos t.isLt]
  rfl

theorem acc5_step (hb5 : Adds5 A5) (c : Dev nD) (t : Fin cfg0.N) (h0 : ¬t.val % 112 = 0) :
    (outsAt0 m c t.val t.isLt).2.2.2
      = fun y => (prevOuts m c t).2.2.2 y + pt5 m A5 c t.val := by
  rw [outsAt0_B m c t h0]
  dsimp only
  refine (out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t)
    (prevOuts m c t).1 (prevOuts m c t).2.1 (prevOuts m c t).2.2.1 (prevOuts m c t).2.2.2).trans ?_
  rw [hb5]
  funext y
  unfold pt5
  rw [dif_pos t.isLt]

/-- At the last point of an outer index accumulator 5 holds zero plus the 112 point sums. -/
theorem acc5_last (hb5 : Adds5 A5) (c : Dev nD) (t : Fin cfg0.N) (h111 : t.val % 112 = 111) :
    (outsAt0 m c t.val t.isLt).2.2.2
      = fun _ => z0 + ∑ s ∈ Finset.range 112, pt5 m A5 c (112 * (t.val / 112) + s) := by
  have e : 112 * (t.val / 112) + 111 = t.val := by omega
  have hlt : 112 * (t.val / 112) + 111 < cfg0.N := by rw [e]; exact t.isLt
  have same : ∀ (u : ℕ) (hu : u < cfg0.N), u = t.val →
      (outsAt0 m c u hu).2.2.2 = (outsAt0 m c t.val t.isLt).2.2.2 := fun u hu e => by subst e; rfl
  rw [← same _ hlt e]
  exact run_sum (N := cfg0.N) (J := 112) (fun n h => (outsAt0 m c n h).2.2.2) z0 (pt5 m A5 c)
    (fun n h h0 => acc5_first m A5 hb5 c ⟨n, h⟩ h0)
    (fun n h hne => acc5_step m A5 hb5 c ⟨n + 1, h⟩ hne)
    (t.val / 112) 111 (by omega) hlt

/-! ## The result arrays after the run -/

/-- Output window 2's block index at point `t`: the outer index `t / 112` on the first axis, zero
    on the others (decided over the grid). -/
theorem idx_out2 : ∀ t : Fin cfg0.N, win0_2.index t (0 : Fin 3) = t.val / 112
    ∧ win0_2.index t (1 : Fin 3) = 0 ∧ win0_2.index t (2 : Fin 3) = 0 :=
  (by decide +kernel : ∀ t : Fin grid0.N, _)

/-- Result array 2 after the run: every entry of block `o` is zero plus outer index `o`'s 112 point sums. -/
def fin2 (c : Dev nD) : S2x8x128.Idx → Ideal .f32 :=
  fun i => z0 + ∑ s ∈ Finset.range 112, pt2 m A2 c (112 * (i 0).val + s)

/-- What the last point of an outer index writes back is that block of `fin2`. -/
theorem flushed2_eq (hb2 : Adds2 A2) (c : Dev nD) (t : Fin cfg0.N) (hf : (cfg0.win 2).flush t = true) :
    (dats m 0 c).flushed 2 t = ((cfg0.win 2).blk t).view.read (Elt Ideal) (fin2 m A2 c) := by
  have h111 : t.val % 112 = 111 := (flush0_2 t).mp hf
  show (cfg0.win 2).cut (grid0.coords t) ((dats m 0 c).after 2 t) = _
  rw [after0_2, acc2_last m A2 hb2 c t h111]
  obtain ⟨e0, e1, e2⟩ := idx_out2 t
  funext j
  show z0 + _ = fin2 m A2 c (((cfg0.win 2).blk t).view.emb j)
  unfold fin2
  have h0 : ((((cfg0.win 2).blk t).view.emb j) 0).val = t.val / 112 := by
    show win0_2.index t (0 : Fin 3) * 1 + 1 * (j 0).val = _
    have hj : (j 0).val < 1 := (j 0).isLt
    omega
  rw [h0]

/-- An index of the array is in point `t`'s block iff each coordinate is in the block's range. -/
theorem mem_blk2 (t : Fin cfg0.N) (i : S2x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v2_0).slice (win0_2.rect t)).set ↔ _
  rw [View.set_slice_whole, Rect.mem_set_unit]
  exact Iff.rfl

/-- Every index of the array lies in the block written back at the last point of its outer index. -/
theorem cover2 (i : S2x8x128.Idx) :
    ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 128 := (i 2).isLt
  have hN : cfg0.N = 224 := N_0
  have hlt : 112 * (i 0).val + 111 < cfg0.N := by rw [hN]; omega
  refine ⟨⟨112 * (i 0).val + 111, hlt⟩, (flush0_2 _).mpr (by show (112 * (i 0).val + 111) % 112 = 111; omega), ?_⟩
  rw [mem_blk2]
  obtain ⟨e0, e1, e2⟩ := idx_out2 ⟨112 * (i 0).val + 111, hlt⟩
  have e0' : win0_2.index ⟨112 * (i 0).val + 111, hlt⟩ (0 : Fin 3) = (i 0).val := by
    rw [e0]; show (112 * (i 0).val + 111) / 112 = (i 0).val; omega
  intro a
  match a with
  | ⟨0, _⟩ =>
    show win0_2.index ⟨112 * (i 0).val + 111, hlt⟩ (0 : Fin 3) * 1 ≤ (i 0).val
      ∧ (i 0).val < win0_2.index ⟨112 * (i 0).val + 111, hlt⟩ (0 : Fin 3) * 1 + 1
    rw [e0']; omega
  | ⟨1, _⟩ =>
    show win0_2.index ⟨112 * (i 0).val + 111, hlt⟩ (1 : Fin 3) * 8 ≤ (i 1).val
      ∧ (i 1).val < win0_2.index ⟨112 * (i 0).val + 111, hlt⟩ (1 : Fin 3) * 8 + 8
    rw [e1]; omega
  | ⟨2, _⟩ =>
    show win0_2.index ⟨112 * (i 0).val + 111, hlt⟩ (2 : Fin 3) * 128 ≤ (i 2).val
      ∧ (i 2).val < win0_2.index ⟨112 * (i 0).val + 111, hlt⟩ (2 : Fin 3) * 128 + 128
    rw [e2]; omega

/-- So result array 2 ends holding `fin2`. -/
theorem final2 (hb2 : Adds2 A2) (c : Dev nD) : (dats m 0 c).arrAt 2 cfg0.N = fin2 m A2 c :=
  (dats m 0 c).arrAt_eq_of_cover 2 (fin2 m A2 c) (flushed2_eq m A2 hb2 c) cover2

/-- Output window 3's block index at point `t`: the outer index `t / 112` on the first axis, zero
    on the others (decided over the grid). -/
theorem idx_out3 : ∀ t : Fin cfg0.N, win0_3.index t (0 : Fin 3) = t.val / 112
    ∧ win0_3.index t (1 : Fin 3) = 0 ∧ win0_3.index t (2 : Fin 3) = 0 :=
  (by decide +kernel : ∀ t : Fin grid0.N, _)

/-- Result array 3 after the run: every entry of block `o` is zero plus outer index `o`'s 112 point sums. -/
def fin3 (c : Dev nD) : S2x8x128.Idx → Ideal .f32 :=
  fun i => z0 + ∑ s ∈ Finset.range 112, pt3 m A3 c (112 * (i 0).val + s)

/-- What the last point of an outer index writes back is that block of `fin3`. -/
theorem flushed3_eq (hb3 : Adds3 A3) (c : Dev nD) (t : Fin cfg0.N) (hf : (cfg0.win 3).flush t = true) :
    (dats m 0 c).flushed 3 t = ((cfg0.win 3).blk t).view.read (Elt Ideal) (fin3 m A3 c) := by
  have h111 : t.val % 112 = 111 := (flush0_3 t).mp hf
  show (cfg0.win 3).cut (grid0.coords t) ((dats m 0 c).after 3 t) = _
  rw [after0_3, acc3_last m A3 hb3 c t h111]
  obtain ⟨e0, e1, e2⟩ := idx_out3 t
  funext j
  show z0 + _ = fin3 m A3 c (((cfg0.win 3).blk t).view.emb j)
  unfold fin3
  have h0 : ((((cfg0.win 3).blk t).view.emb j) 0).val = t.val / 112 := by
    show win0_3.index t (0 : Fin 3) * 1 + 1 * (j 0).val = _
    have hj : (j 0).val < 1 := (j 0).isLt
    omega
  rw [h0]

/-- An index of the array is in point `t`'s block iff each coordinate is in the block's range. -/
theorem mem_blk3 (t : Fin cfg0.N) (i : S2x8x128.Idx) :
    i ∈ ((cfg0.win 3).blk t).view.set ↔ ∀ a : Fin 3, win0_3.index t a * S1x8x128.size a ≤ (i a).val
      ∧ (i a).val < win0_3.index t a * S1x8x128.size a + S1x8x128.size a := by
  show i ∈ ((View.whole main_v2_1).slice (win0_3.rect t)).set ↔ _
  rw [View.set_slice_whole, Rect.mem_set_unit]
  exact Iff.rfl

/-- Every index of the array lies in the block written back at the last point of its outer index. -/
theorem cover3 (i : S2x8x128.Idx) :
    ∃ t : Fin cfg0.N, (cfg0.win 3).flush t = true ∧ i ∈ ((cfg0.win 3).blk t).view.set := by
  have hi0 : (i 0).val < 2 := (i 0).isLt
  have hi1 : (i 1).val < 8 := (i 1).isLt
  have hi2 : (i 2).val < 128 := (i 2).isLt
  have hN : cfg0.N = 224 := N_0
  have hlt : 112 * (i 0).val + 111 < cfg0.N := by rw [hN]; omega
  refine ⟨⟨112 * (i 0).val + 111, hlt⟩, (flush0_3 _).mpr (by show (112 * (i 0).val + 111) % 112 = 111; omega), ?_⟩
  rw [mem_blk3]
  obtain ⟨e0, e1, e2⟩ := idx_out3 ⟨112 * (i 0).val + 111, hlt⟩
  have e0' : win0_3.index ⟨112 * (i 0).val + 111, hlt⟩ (0 : Fin 3) = (i 0).val := by
    rw [e0]; show (112 * (i 0).val + 111) / 112 = (i 0).val; omega
  intro a
  match a with
  | ⟨0, _⟩ =>
    show win0_3.index ⟨112 * (i 0).val + 111, hlt⟩ (0 : Fin 3) * 1 ≤ (i 0).val
      ∧ (i 0).val < win0_3.index ⟨112 * (i 0).val + 111, hlt⟩ (0 : Fin 3) * 1 + 1
    rw [e0']; omega
  | ⟨1, _⟩ =>
    show win0_3.index ⟨112 * (i 0).val + 111, hlt⟩ (1 : Fin 3) * 8 ≤ (i 1).val
      ∧ (i 1).val < win0_3.index ⟨112 * (i 0).val + 111, hlt⟩ (1 : Fin 3) * 8 + 8
    rw [e1]; omega
  | ⟨2, _⟩ =>
    show win0_3.index ⟨112 * (i 0).val + 111, hlt⟩ (2 : Fin 3) * 128 ≤ (i 2).val
      ∧ (i 2).val < win0_3.index ⟨112 * (i 0).val + 111, hlt⟩ (2 : Fin 3) * 128 + 128
    rw [e2]; omega

/-- So result array 3 ends holding `fin3`. -/
theorem final3 (hb3 : Adds3 A3) (c : Dev nD) : (dats m 0 c).arrAt 3 cfg0.N = fin3 m A3 c :=
  (dats m 0 c).arrAt_eq_of_cover 3 (fin3 m A3 c) (flushed3_eq m A3 hb3 c) cover3

/-- Output window 4's block index at point `t`: the outer index `t / 112` on the first axis, zero
    on the others (decided over the grid). -/
theorem idx_out4 : ∀ t : Fin cfg0.N, win0_4.index t (0 : Fin 3) = t.val / 112
    ∧ win0_4.index t (1 : Fin 3) = 0 ∧ win0_4.index t (2 : Fin 3) = 0 :=
  (by decide +kernel : ∀ t : Fin grid0.N, _)

/-- Result array 4 after the run: every entry of block `o` is zero plus outer index `o`'s 112 point sums. -/
def fin4 (c : Dev nD) : S2x8x128.Idx → Ideal .f32 :=
  fun i => z0 + ∑ s ∈ Finset.range 112, pt4 m A4 c (112 * (i 0).val + s)

/-- What the last point of an outer index writes back is that block of `fin4`. -/
theorem flushed4_eq (hb4 : Adds4 A4) (c : Dev nD) (t : Fin cfg0.N) (hf : (cfg0.win 4).flush t = true) :
    (dats m 0 c).flushed 4 t = ((cfg0.win 4).blk t).view.read (Elt Ideal) (fin4 m A4 c) := by
  have h111 : t.val % 112 = 111 := (flush0_4 t).mp hf
  show (cfg0.win 4).cut (grid0.coords t) ((dats m 0 c).after 4 t) = _
  rw [after0_4, acc4_last m A4 hb4 c t h111]
  obtain ⟨e0, e1, e2⟩ := idx_out4 t
  funext j
  show z0 + _ = fin4 m A4 c (((cfg0.win 4).blk t).view.emb j)
  unfold fin4
  have h0 : ((((cfg0.win 4).blk t).view.emb j) 0).val = t.val / 112 := by
    show win0_4.index t (0 : Fin 3) * 1 + 1 * (j 0).val = _
    have hj : (j 0).val < 1 := (j 0).isLt
    omega
  rw [h0]

/-- An index of the array is in point `t`'s block iff each coordinate is in the block's range. -/
theorem mem_blk4 (t : Fin cfg0.N) (i : S2x8x128.Idx) :
    i ∈ ((cfg0.win 4).blk t).view.set ↔ ∀ a : Fin 3, win0_4.index t a * S1x8x128.size a ≤ (i a).val
      ∧ (i a).val < win0_4.index t a * S1x8x128.size a + S1x8x128.size a := by
  show i ∈ ((View.whole main_v2_2).slice (win0_4.rect t)).set ↔ _
  rw [View.set_slice_whole, Rect.mem_set_unit]
  exact Iff.rfl

/-- Every index of the array lies in the block written back at the last point of its outer index. -/
theorem cover4 (i : S2x8x128.Idx) :
    ∃ t : Fin cfg0.N, (cfg0.win 4).flush t = true ∧ i ∈ ((cfg0.win 4).blk t).view.set := by
  have hi0 : (i 0).val < 2 := (i 0).isLt
  have hi1 : (i 1).val < 8 := (i 1).isLt
  have hi2 : (i 2).val < 128 := (i 2).isLt
  have hN : cfg0.N = 224 := N_0
  have hlt : 112 * (i 0).val + 111 < cfg0.N := by rw [hN]; omega
  refine ⟨⟨112 * (i 0).val + 111, hlt⟩, (flush0_4 _).mpr (by show (112 * (i 0).val + 111) % 112 = 111; omega), ?_⟩
  rw [mem_blk4]
  obtain ⟨e0, e1, e2⟩ := idx_out4 ⟨112 * (i 0).val + 111, hlt⟩
  have e0' : win0_4.index ⟨112 * (i 0).val + 111, hlt⟩ (0 : Fin 3) = (i 0).val := by
    rw [e0]; show (112 * (i 0).val + 111) / 112 = (i 0).val; omega
  intro a
  match a with
  | ⟨0, _⟩ =>
    show win0_4.index ⟨112 * (i 0).val + 111, hlt⟩ (0 : Fin 3) * 1 ≤ (i 0).val
      ∧ (i 0).val < win0_4.index ⟨112 * (i 0).val + 111, hlt⟩ (0 : Fin 3) * 1 + 1
    rw [e0']; omega
  | ⟨1, _⟩ =>
    show win0_4.index ⟨112 * (i 0).val + 111, hlt⟩ (1 : Fin 3) * 8 ≤ (i 1).val
      ∧ (i 1).val < win0_4.index ⟨112 * (i 0).val + 111, hlt⟩ (1 : Fin 3) * 8 + 8
    rw [e1]; omega
  | ⟨2, _⟩ =>
    show win0_4.index ⟨112 * (i 0).val + 111, hlt⟩ (2 : Fin 3) * 128 ≤ (i 2).val
      ∧ (i 2).val < win0_4.index ⟨112 * (i 0).val + 111, hlt⟩ (2 : Fin 3) * 128 + 128
    rw [e2]; omega

/-- So result array 4 ends holding `fin4`. -/
theorem final4 (hb4 : Adds4 A4) (c : Dev nD) : (dats m 0 c).arrAt 4 cfg0.N = fin4 m A4 c :=
  (dats m 0 c).arrAt_eq_of_cover 4 (fin4 m A4 c) (flushed4_eq m A4 hb4 c) cover4

/-- Output window 5's block index at point `t`: the outer index `t / 112` on the first axis, zero
    on the others (decided over the grid). -/
theorem idx_out5 : ∀ t : Fin cfg0.N, win0_5.index t (0 : Fin 3) = t.val / 112
    ∧ win0_5.index t (1 : Fin 3) = 0 ∧ win0_5.index t (2 : Fin 3) = 0 :=
  (by decide +kernel : ∀ t : Fin grid0.N, _)

/-- Result array 5 after the run: every entry of block `o` is zero plus outer index `o`'s 112 point sums. -/
def fin5 (c : Dev nD) : S2x8x128.Idx → Ideal .f32 :=
  fun i => z0 + ∑ s ∈ Finset.range 112, pt5 m A5 c (112 * (i 0).val + s)

/-- What the last point of an outer index writes back is that block of `fin5`. -/
theorem flushed5_eq (hb5 : Adds5 A5) (c : Dev nD) (t : Fin cfg0.N) (hf : (cfg0.win 5).flush t = true) :
    (dats m 0 c).flushed 5 t = ((cfg0.win 5).blk t).view.read (Elt Ideal) (fin5 m A5 c) := by
  have h111 : t.val % 112 = 111 := (flush0_5 t).mp hf
  show (cfg0.win 5).cut (grid0.coords t) ((dats m 0 c).after 5 t) = _
  rw [after0_5, acc5_last m A5 hb5 c t h111]
  obtain ⟨e0, e1, e2⟩ := idx_out5 t
  funext j
  show z0 + _ = fin5 m A5 c (((cfg0.win 5).blk t).view.emb j)
  unfold fin5
  have h0 : ((((cfg0.win 5).blk t).view.emb j) 0).val = t.val / 112 := by
    show win0_5.index t (0 : Fin 3) * 1 + 1 * (j 0).val = _
    have hj : (j 0).val < 1 := (j 0).isLt
    omega
  rw [h0]

/-- An index of the array is in point `t`'s block iff each coordinate is in the block's range. -/
theorem mem_blk5 (t : Fin cfg0.N) (i : S2x8x128.Idx) :
    i ∈ ((cfg0.win 5).blk t).view.set ↔ ∀ a : Fin 3, win0_5.index t a * S1x8x128.size a ≤ (i a).val
      ∧ (i a).val < win0_5.index t a * S1x8x128.size a + S1x8x128.size a := by
  show i ∈ ((View.whole main_v2_3).slice (win0_5.rect t)).set ↔ _
  rw [View.set_slice_whole, Rect.mem_set_unit]
  exact Iff.rfl

/-- Every index of the array lies in the block written back at the last point of its outer index. -/
theorem cover5 (i : S2x8x128.Idx) :
    ∃ t : Fin cfg0.N, (cfg0.win 5).flush t = true ∧ i ∈ ((cfg0.win 5).blk t).view.set := by
  have hi0 : (i 0).val < 2 := (i 0).isLt
  have hi1 : (i 1).val < 8 := (i 1).isLt
  have hi2 : (i 2).val < 128 := (i 2).isLt
  have hN : cfg0.N = 224 := N_0
  have hlt : 112 * (i 0).val + 111 < cfg0.N := by rw [hN]; omega
  refine ⟨⟨112 * (i 0).val + 111, hlt⟩, (flush0_5 _).mpr (by show (112 * (i 0).val + 111) % 112 = 111; omega), ?_⟩
  rw [mem_blk5]
  obtain ⟨e0, e1, e2⟩ := idx_out5 ⟨112 * (i 0).val + 111, hlt⟩
  have e0' : win0_5.index ⟨112 * (i 0).val + 111, hlt⟩ (0 : Fin 3) = (i 0).val := by
    rw [e0]; show (112 * (i 0).val + 111) / 112 = (i 0).val; omega
  intro a
  match a with
  | ⟨0, _⟩ =>
    show win0_5.index ⟨112 * (i 0).val + 111, hlt⟩ (0 : Fin 3) * 1 ≤ (i 0).val
      ∧ (i 0).val < win0_5.index ⟨112 * (i 0).val + 111, hlt⟩ (0 : Fin 3) * 1 + 1
    rw [e0']; omega
  | ⟨1, _⟩ =>
    show win0_5.index ⟨112 * (i 0).val + 111, hlt⟩ (1 : Fin 3) * 8 ≤ (i 1).val
      ∧ (i 1).val < win0_5.index ⟨112 * (i 0).val + 111, hlt⟩ (1 : Fin 3) * 8 + 8
    rw [e1]; omega
  | ⟨2, _⟩ =>
    show win0_5.index ⟨112 * (i 0).val + 111, hlt⟩ (2 : Fin 3) * 128 ≤ (i 2).val
      ∧ (i 2).val < win0_5.index ⟨112 * (i 0).val + 111, hlt⟩ (2 : Fin 3) * 128 + 128
    rw [e2]; omega

/-- So result array 5 ends holding `fin5`. -/
theorem final5 (hb5 : Adds5 A5) (c : Dev nD) : (dats m 0 c).arrAt 5 cfg0.N = fin5 m A5 c :=
  (dats m 0 c).arrAt_eq_of_cover 5 (fin5 m A5 c) (flushed5_eq m A5 hb5 c) cover5

/-! ## The host operations after the region -/

/-- What the region leaves in each result array, as the lines after the region find it. -/
theorem arr_after2 (hb2 : Adds2 A2) (c : Dev nD) :
    Pipeline.withArrays (cfgs 0).spec c (V0 m c) (fun w => (dats m 0 c).arrAt w (cfgs 0).N) (Proc.devRef .tc main_v2_0)
      = fin2 m A2 c :=
  (Pipeline.withArrays_arr spec0 launch0.win.arr_inj c (V0 m c) (fun w => (dats m 0 c).arrAt w cfg0.N) 2).trans
    (final2 m A2 hb2 c)

theorem arr_after3 (hb3 : Adds3 A3) (c : Dev nD) :
    Pipeline.withArrays (cfgs 0).spec c (V0 m c) (fun w => (dats m 0 c).arrAt w (cfgs 0).N) (Proc.devRef .tc main_v2_1)
      = fin3 m A3 c :=
  (Pipeline.withArrays_arr spec0 launch0.win.arr_inj c (V0 m c) (fun w => (dats m 0 c).arrAt w cfg0.N) 3).trans
    (final3 m A3 hb3 c)

theorem arr_after4 (hb4 : Adds4 A4) (c : Dev nD) :
    Pipeline.withArrays (cfgs 0).spec c (V0 m c) (fun w => (dats m 0 c).arrAt w (cfgs 0).N) (Proc.devRef .tc main_v2_2)
      = fin4 m A4 c :=
  (Pipeline.withArrays_arr spec0 launch0.win.arr_inj c (V0 m c) (fun w => (dats m 0 c).arrAt w cfg0.N) 4).trans
    (final4 m A4 hb4 c)

theorem arr_after5 (hb5 : Adds5 A5) (c : Dev nD) :
    Pipeline.withArrays (cfgs 0).spec c (V0 m c) (fun w => (dats m 0 c).arrAt w (cfgs 0).N) (Proc.devRef .tc main_v2_3)
      = fin5 m A5 c :=
  (Pipeline.withArrays_arr spec0 launch0.win.arr_inj c (V0 m c) (fun w => (dats m 0 c).arrAt w cfg0.N) 5).trans
    (final5 m A5 hb5 c)

/-- Entry `(o, 0, 0)` of a [2, 8, 128] array, sliced out and cast to a vector of two, at `o`. -/
theorem corner_apply (G : S2x8x128.Idx → Ideal .f32) (h1 : S2x8x128.Slices ![0, 0, 0] S2x1x1) (h2 : S2x1x1.ShapeCasts S2)
    (o : Fin 2) :
    shapeCast S2 (extractStridedSlice S2x1x1 ![0, 0, 0] G h1) h2 (ValueIdx.ix1 o) = G (ValueIdx.ix3 o 0 0) := by
  rw [shapeCast_apply _ h2 (ValueIdx.ix1 o) (ValueIdx.ix3 o 0 0)
    (by rw [Shape.rowMajor_val_three, Shape.rowMajor_val_one]; show (o.val * 1 + 0) * 1 + 0 = o.val; omega)]
  exact extractStridedSlice_apply ![0, 0, 0] G h1 (ValueIdx.ix3 o 0 0) (ValueIdx.ix3 o 0 0) (fun a => match a with
    | ⟨0, _⟩ => by show o.val = 0 + o.val; omega
    | ⟨1, _⟩ => by show (0 : ℕ) = 0 + 0; omega
    | ⟨2, _⟩ => by show (0 : ℕ) = 0 + 0; omega)

/-- The host's sum of the two corner entries: the initial zero plus the two. -/
theorem corner_sum (G : S2x8x128.Idx → Ideal .f32) (h1 : S2x8x128.Slices ![0, 0, 0] S2x1x1) (h2 : S2x1x1.ShapeCasts S2)
    (j : S_.Idx) :
    Host.reduceAdd (shapeCast S2 (extractStridedSlice S2x1x1 ![0, 0, 0] G h1) h2) (constant S_ .f32 0x00000000#32)
        reducesTo_S2_S_d0 h_S_ j
      = z0 + ∑ o : Fin 2, G (ValueIdx.ix3 o 0 0) := by
  rw [ValueIdx.hostReduceAdd_apply, Ideal.hostReduceAdd_total reducesTo_S2_S_d0 (fun b => b.elim0)]
  refine congrArg (z0 + ·) ?_
  rw [← Equiv.sum_comp ValueIdx.idxEquiv1.symm]
  exact Finset.sum_congr rfl fun o _ => corner_apply G h1 h2 o

/-- The first result: five times the host's sum of the two outer indices' totals. -/
theorem tail_v15 (hb2 : Adds2 A2) (c : Dev nD) :
    Pipeline.afterTail₀ cfgs (dats m) 0 (V0 m) [hostOps1] c main_v15
      = fun _ => Ideal.ofBits .f32 0x40A00000#32 * (z0 + ∑ o : Fin 2, fin2 m A2 c (ValueIdx.ix3 o 0 0)) := by
  unfold Pipeline.afterTail₀
  show StableHlo.after hostOps1 _ (Proc.devRef .tc main_v15) = _
  after_results
  rw [arr_after2 m A2 hb2 c]
  funext j
  exact congrArg (Ideal.ofBits .f32 0x40A00000#32 * ·) (corner_sum (fin2 m A2 c) _ _ j)

/-- The second result: the host's sum of the two outer indices' totals. -/
theorem tail_v8 (hb3 : Adds3 A3) (c : Dev nD) :
    Pipeline.afterTail₀ cfgs (dats m) 0 (V0 m) [hostOps1] c main_v8
      = fun _ => z0 + ∑ o : Fin 2, fin3 m A3 c (ValueIdx.ix3 o 0 0) := by
  unfold Pipeline.afterTail₀
  show StableHlo.after hostOps1 _ (Proc.devRef .tc main_v8) = _
  after_results
  rw [arr_after3 m A3 hb3 c]
  funext j
  exact corner_sum (fin3 m A3 c) _ _ j

/-- The third result: the third total divided by three times the fourth. -/
theorem tail_v17 (hb4 : Adds4 A4) (hb5 : Adds5 A5) (c : Dev nD) :
    Pipeline.afterTail₀ cfgs (dats m) 0 (V0 m) [hostOps1] c main_v17
      = fun _ => Ideal.div (z0 + ∑ o : Fin 2, fin4 m A4 c (ValueIdx.ix3 o 0 0))
          ((z0 + ∑ o : Fin 2, fin5 m A5 c (ValueIdx.ix3 o 0 0)) * Ideal.ofBits .f32 0x40400000#32) := by
  unfold Pipeline.afterTail₀
  show StableHlo.after hostOps1 _ (Proc.devRef .tc main_v17) = _
  after_results
  rw [arr_after4 m A4 hb4 c, arr_after5 m A5 hb5 c]
  funext j
  exact congrArg₂ Ideal.div (corner_sum (fin4 m A4 c) _ _ j)
    (congrArg (· * Ideal.ofBits .f32 0x40400000#32) (corner_sum (fin5 m A5 c) _ _ j))

/-! ## The run, read -/

/-- The kernel's run: every weakly fair execution terminates with the three results at their closed
    forms and the two argument arrays unchanged. -/
theorem run (hb2 : Adds2 A2) (hb3 : Adds3 A3) (hb4 : Adds4 A4) (hb5 : Adds5 A5) :
    θ_run defs (onTc (τ := τ) (main (F := Ideal))) ⟨m, fun _ => 0, ρ⟩ fun r => ∀ c : Dev nD,
      r.2.mem ((c : Thread nD τ).loc main_v15)
          = (fun _ => Ideal.ofBits .f32 0x40A00000#32 * (z0 + ∑ o : Fin 2, fin2 m A2 c (ValueIdx.ix3 o 0 0)))
      ∧ r.2.mem ((c : Thread nD τ).loc main_v8) = (fun _ => z0 + ∑ o : Fin 2, fin3 m A3 c (ValueIdx.ix3 o 0 0))
      ∧ r.2.mem ((c : Thread nD τ).loc main_v17)
          = (fun _ => Ideal.div (z0 + ∑ o : Fin 2, fin4 m A4 c (ValueIdx.ix3 o 0 0))
              ((z0 + ∑ o : Fin 2, fin5 m A5 c (ValueIdx.ix3 o 0 0)) * Ideal.ofBits .f32 0x40400000#32))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v15 (Pipeline.mem_restRefs_of main_v15 (by decide) (by decide))).trans (tail_v15 m A2 hb2 c),
     ((h c).2 main_v8 (Pipeline.mem_restRefs_of main_v8 (by decide) (by decide))).trans (tail_v8 m A3 hb3 c),
     ((h c).2 main_v17 (Pipeline.mem_restRefs_of main_v17 (by decide) (by decide))).trans (tail_v17 m A4 A5 hb4 hb5 c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

/-! ## The blocks a point loads -/

/-- The input windows' block index at point `t`: the point's number on the rows, zero on the channels
    (decided over the grid). -/
theorem idx_in0 : ∀ t : Fin cfg0.N, win0_0.index t (0 : Fin 2) = t.val ∧ win0_0.index t (1 : Fin 2) = 0 :=
  (by decide +kernel : ∀ t : Fin grid0.N, _)
theorem idx_in1 : ∀ t : Fin cfg0.N, win0_1.index t (0 : Fin 2) = t.val ∧ win0_1.index t (1 : Fin 2) = 0 :=
  (by decide +kernel : ∀ t : Fin grid0.N, _)

/-- The region finds the predicted cells as the host's reshape of the first argument to [1605632, 13]. -/
theorem V_main_v0 (c : Dev nD) :
    (V m c main_v0 : S1605632x13.Idx → Ideal .f32)
      = shapeCast S1605632x13 (m ((c : Thread nD τ).loc main_arg0)) shapeCasts_S32768x7x7x13_S1605632x13 := by
  dsimp only [V, V0]
  simp only [hostOps0, List.flatten_cons, List.flatten_nil, List.append_nil, List.cons_append, List.nil_append]
  after_results
  rfl
/-- and the target cells as the reshape of the second. -/
theorem V_main_v1 (c : Dev nD) :
    (V m c main_v1 : S1605632x13.Idx → Ideal .f32)
      = shapeCast S1605632x13 (m ((c : Thread nD τ).loc main_arg1)) shapeCasts_S32768x7x7x13_S1605632x13 := by
  dsimp only [V, V0]
  simp only [hostOps0, List.flatten_cons, List.flatten_nil, List.append_nil, List.cons_append, List.nil_append]
  after_results
  rfl

/-- Row `r`, channel `k` of the block of predicted cells that point `t` loads is row
    `7168 t + r` of the reshaped first argument. -/
theorem xp_apply (c : Dev nD) (t : Fin cfg0.N) (r : Fin 7168) (k : Fin 13) (hn : t.val * 7168 + r.val < 1605632) :
    xp m c t (ValueIdx.ix2 r k)
      = shapeCast S1605632x13 (m ((c : Thread nD τ).loc main_arg0)) shapeCasts_S32768x7x7x13_S1605632x13
          (ValueIdx.ix2 ⟨t.val * 7168 + r.val, hn⟩ k) := by
  obtain ⟨e0, e1⟩ := idx_in0 t
  rw [← V_main_v0 m c]
  show iblk m c 0 t (ValueIdx.ix2 r k) = _
  unfold iblk
  rw [View.read_apply]
  show V m c main_v0 _ = V m c main_v0 _
  congr 1
  funext a
  apply Fin.ext
  match a with
  | ⟨0, _⟩ => show win0_0.index t (0 : Fin 2) * 7168 + 1 * r.val = t.val * 7168 + r.val; rw [e0]; omega
  | ⟨1, _⟩ => show win0_0.index t (1 : Fin 2) * 13 + 1 * k.val = k.val; rw [e1]; omega

theorem xt_apply (c : Dev nD) (t : Fin cfg0.N) (r : Fin 7168) (k : Fin 13) (hn : t.val * 7168 + r.val < 1605632) :
    xt m c t (ValueIdx.ix2 r k)
      = shapeCast S1605632x13 (m ((c : Thread nD τ).loc main_arg1)) shapeCasts_S32768x7x7x13_S1605632x13
          (ValueIdx.ix2 ⟨t.val * 7168 + r.val, hn⟩ k) := by
  obtain ⟨e0, e1⟩ := idx_in1 t
  rw [← V_main_v1 m c]
  show iblk m c 1 t (ValueIdx.ix2 r k) = _
  unfold iblk
  rw [View.read_apply]
  show V m c main_v1 _ = V m c main_v1 _
  congr 1
  funext a
  apply Fin.ext
  match a with
  | ⟨0, _⟩ => show win0_1.index t (0 : Fin 2) * 7168 + 1 * r.val = t.val * 7168 + r.val; rw [e0]; omega
  | ⟨1, _⟩ => show win0_1.index t (1 : Fin 2) * 13 + 1 * k.val = k.val; rw [e1]; omega

end Acc

end Cert.KernelIdeal.Gen

end
-- ==== Proof.Cell.lean ====
/-
  The YOLO-style loss of one grid cell, as scalar functions over the extended reals.

  A cell carries thirteen channels: two boxes (cx, cy, w, h) in channels 0-3 and 5-8, their
  confidences in channels 4 and 9, and three class scores in channels 10-12. `p` is the
  predicted cell and `t` the target cell. Every function below is written with the exact
  operations, in the order both programs apply them, so that each program's per-cell value is
  one of these functions of the cell's thirteen channels.
-/
import Idealize.ShloMosaic.PureOps.Ideal
import Idealize.ShloMosaic.Lib.ValueIdx

noncomputable section

namespace Cert.Yolo

open Idealize.ShloMosaic

/-- A float literal at the ideal values. -/
abbrev lit (w : BitVec 32) : Ideal .f32 := Ideal.ofBits .f32 w

/-- 64, the size of a grid cell in pixels. -/
abbrev c64 : Ideal .f32 := lit 0x42800000#32
/-- 448, the image size in pixels. -/
abbrev c448 : Ideal .f32 := lit 0x43E00000#32
abbrev c2 : Ideal .f32 := lit 0x40000000#32
abbrev c1 : Ideal .f32 := lit 0x3F800000#32
abbrev c0 : Ideal .f32 := lit 0x00000000#32
abbrev chalf : Ideal .f32 := lit 0x3F000000#32
abbrev c3 : Ideal .f32 := lit 0x40400000#32
abbrev c5 : Ideal .f32 := lit 0x40A00000#32

/-- Intersection over union of the boxes `a` and `b`, each (cx, cy, w, h) with the centre in
    grid units and the extent normalised: the boxes are scaled to pixels, the intersection
    rectangle is cut out by max / min of the edges, and where the rectangle is empty the result
    is 0 (the divisor replaced by 1 there). -/
def iou (a0 a1 a2 a3 b0 b1 b2 b3 : Ideal .f32) : Ideal .f32 :=
  let x1 := a0 * c64
  let y1 := a1 * c64
  let w1 := a2 * c448
  let h1 := a3 * c448
  let x2 := b0 * c64
  let y2 := b1 * c64
  let w2 := b2 * c448
  let h2 := b3 * c448
  let xl := max (x1 - Ideal.div w1 c2) (x2 - Ideal.div w2 c2)
  let yt := max (y1 - Ideal.div h1 c2) (y2 - Ideal.div h2 c2)
  let xr := min (x1 + Ideal.div w1 c2) (x2 + Ideal.div w2 c2)
  let yb := min (y1 + Ideal.div h1 c2) (y2 + Ideal.div h2 c2)
  let valid : BitVec 1 := IntOp.andi (FloatOps.cmpf .oge xr xl) (FloatOps.cmpf .oge yb yt)
  let inter := (xr - xl) * (yb - yt)
  let union := w1 * h1 + w2 * h2 - inter
  Scalar.select valid (Ideal.div inter (Scalar.select valid union c1)) c0

/-- The fractional part `x - floor x`: a target centre as an offset inside its cell. -/
def frac (x : Ideal .f32) : Ideal .f32 := x - Ideal.liftRound Int.floor x

/-- The localisation error of a predicted box `a` against a target box `b`: the mean square
    error of the centre (against the target's in-cell offset) plus that of the extent, each a
    mean over two numbers. -/
def locErr (a0 a1 a2 a3 b0 b1 b2 b3 : Ideal .f32) : Ideal .f32 :=
  Ideal.div ((a0 - frac b0) * (a0 - frac b0) + (a1 - frac b1) * (a1 - frac b1)) c2
    + Ideal.div ((a2 - b2) * (a2 - b2) + (a3 - b3) * (a3 - b3)) c2

variable (p t : Fin 13 → Ideal .f32)

/-- 1 where the target cell holds an object (target confidence above 0), else 0. -/
def mask : Ideal .f32 := FloatOps.uitofp .f32 (FloatOps.cmpf .ogt (t 4) c0)

def iou1 : Ideal .f32 := iou (p 0) (p 1) (p 2) (p 3) (t 0) (t 1) (t 2) (t 3)
def iou2 : Ideal .f32 := iou (p 5) (p 6) (p 7) (p 8) (t 5) (t 6) (t 7) (t 8)
def loc1 : Ideal .f32 := locErr (p 0) (p 1) (p 2) (p 3) (t 0) (t 1) (t 2) (t 3)
def loc2 : Ideal .f32 := locErr (p 5) (p 6) (p 7) (p 8) (t 5) (t 6) (t 7) (t 8)

/-- The objectness error when box 1 is responsible: its confidence against its IoU, and half
    the square of the other box's confidence. -/
def obj1 : Ideal .f32 := (p 4 - iou1 p t) * (p 4 - iou1 p t) + chalf * (p 9 * p 9)
def obj2 : Ideal .f32 := (p 9 - iou2 p t) * (p 9 - iou2 p t) + chalf * (p 4 * p 4)

/-- Box 1 is responsible where its IoU is strictly the larger. -/
def use1 : BitVec 1 := FloatOps.cmpf .ogt (iou1 p t) (iou2 p t)

/-- The cell's localisation term: the responsible box's error, kept where the cell has an object. -/
def locTerm : Ideal .f32 := mask t * Scalar.select (use1 p t) (loc1 p t) (loc2 p t)
/-- The cell's objectness term. -/
def objTerm : Ideal .f32 := mask t * Scalar.select (use1 p t) (obj1 p t) (obj2 p t)
/-- The cell's squared class error on class `k`, kept where the cell has an object. -/
def clsTerm (k : Fin 3) : Ideal .f32 :=
  mask t * ((p ⟨10 + k.val, by omega⟩ - t ⟨10 + k.val, by omega⟩) * (p ⟨10 + k.val, by omega⟩ - t ⟨10 + k.val, by omega⟩))

end Cert.Yolo

end
-- ==== Proof.TileCell.lean ====
/-
  The kernel body's arithmetic, read cell by cell.

  At one grid point the body loads a block `x0` of 7168 predicted cells and the block `x1` of
  the 7168 target cells, transposes and regroups the thirteen channels, computes the loss terms
  of every cell side by side, sums each over the block and adds the four sums into its four
  accumulators. Read at the ideal values, what it adds is the sum over the block's rows of the
  scalar cell functions of `Cell.lean`.

  The reading goes in four steps. First the layout: the regrouped matrix has the channels as
  rows, in the order 0-3, 5-8, 4, 9, 10-12, and every later access is a literal row of it, so
  each sliced and flattened channel vector is the block read down one channel. Second the
  arithmetic between those vectors is entry by entry, so it is the scalar cell function at each
  cell. Third the sums: a sum over the two rows of a two-row matrix is the sum of its two
  entries per column, and a sum of a one-row or [1, 3, 7168] array into one number is the sum
  over the cells (and the three classes). Last each accumulator gets that number added to every
  entry.
-/
import proofs.«408613_j41755672051846_3_alg».proof.Proof.Body
import proofs.«408613_j41755672051846_3_alg».proof.Proof.Cell
import Idealize.ShloMosaic.Lib.Pipeline.Value
import Idealize.ShloMosaic.Lib.ValueLayout
import Idealize.ShloMosaic.Lib.KernelVsHost
import Idealize.ShloMosaic.PureOps.Ideal.Laws

noncomputable section

namespace Cert.Yolo

open Idealize.ShloMosaic Idealize.ShloMosaic.ValueIdx Cert.KernelIdeal Cert.KernelIdeal.Gen

/-- Row `r` of a [7168, 13] block: that cell's thirteen channels. -/
def rowOf (x : Vec Ideal S7168x13 .f32) (r : Fin 7168) : Fin 13 → Ideal .f32 := fun k => x (ix2 r k)

/-! ## The layout: the regrouped matrix row by row -/

/-- The regrouped matrix's first four rows are channels 0 to 3. -/
theorem pay6_piece0 (x : Vec Ideal S7168x13 .f32) (j : Fin 4) (r : Fin 7168) :
    k0_pay6 x (ix2 ⟨j.val, by omega⟩ r) = x (ix2 r ⟨j.val, by omega⟩) := by
  unfold k0_pay6
  refine Eq.trans (concatenate_apply_piece (t := S13x7168) 0 _ _ _ 0 ?hk S4x7168 ?x1 ?hxk rfl 0 ?hpre (ix2 j r) ?hi ?ha) ?fin
  case hxk => exact rfl
  case hk => exact Nat.succ_pos _
  case hpre => rfl
  case hi =>
    intro b hb
    match b with
    | ⟨0, _⟩ => exact absurd rfl hb
    | ⟨1, _⟩ => rfl
  case ha => exact Nat.zero_add _
  case fin =>
    refine (slice2_axis0_apply (n0 := 13) (n1 := 7168) (m := 4) 0 _ _ j r ⟨j.val, by omega⟩ (Nat.zero_add _).symm).trans ?_
    rw [transpose_ix2_apply, shapeCast_self]

/-- Its next four rows are channels 5 to 8. -/
theorem pay6_piece1 (x : Vec Ideal S7168x13 .f32) (j : Fin 4) (r : Fin 7168) :
    k0_pay6 x (ix2 ⟨4 + j.val, by omega⟩ r) = x (ix2 r ⟨5 + j.val, by omega⟩) := by
  unfold k0_pay6
  refine Eq.trans (concatenate_apply_piece (t := S13x7168) 0 _ _ _ 1 ?hk S4x7168 ?x1 ?hxk rfl 4 ?hpre (ix2 j r) ?hi ?ha) ?fin
  case hxk => exact rfl
  case hk => simp
  case hpre => rfl
  case hi =>
    intro b hb
    match b with
    | ⟨0, _⟩ => exact absurd rfl hb
    | ⟨1, _⟩ => rfl
  case ha => rfl
  case fin =>
    rw [slice2_axis0_eq, transpose_ix2_apply, shapeCast_self]

/-- Row 8 is channel 4. -/
theorem pay6_row8 (x : Vec Ideal S7168x13 .f32) (r : Fin 7168) :
    k0_pay6 x (ix2 ⟨8, by omega⟩ r) = x (ix2 r ⟨4, by omega⟩) := by
  unfold k0_pay6
  refine Eq.trans (concatenate_apply_piece (t := S13x7168) 0 _ _ _ 2 ?hk S1x7168 ?x1 ?hxk rfl 8 ?hpre (ix2 (0 : Fin 1) r) ?hi ?ha) ?fin
  case hxk => exact rfl
  case hk => simp
  case hpre => rfl
  case hi =>
    intro b hb
    match b with
    | ⟨0, _⟩ => exact absurd rfl hb
    | ⟨1, _⟩ => rfl
  case ha => rfl
  case fin =>
    rw [slice2_axis0_eq, transpose_ix2_apply, shapeCast_self]
    rfl

/-- Row 9 is channel 9. -/
theorem pay6_row9 (x : Vec Ideal S7168x13 .f32) (r : Fin 7168) :
    k0_pay6 x (ix2 ⟨9, by omega⟩ r) = x (ix2 r ⟨9, by omega⟩) := by
  unfold k0_pay6
  refine Eq.trans (concatenate_apply_piece (t := S13x7168) 0 _ _ _ 3 ?hk S1x7168 ?x1 ?hxk rfl 9 ?hpre (ix2 (0 : Fin 1) r) ?hi ?ha) ?fin
  case hxk => exact rfl
  case hk => simp
  case hpre => rfl
  case hi =>
    intro b hb
    match b with
    | ⟨0, _⟩ => exact absurd rfl hb
    | ⟨1, _⟩ => rfl
  case ha => rfl
  case fin =>
    rw [slice2_axis0_eq, transpose_ix2_apply, shapeCast_self]
    rfl

/-- Its last three rows are channels 10 to 12. -/
theorem pay6_piece4 (x : Vec Ideal S7168x13 .f32) (j : Fin 3) (r : Fin 7168) :
    k0_pay6 x (ix2 ⟨10 + j.val, by omega⟩ r) = x (ix2 r ⟨10 + j.val, by omega⟩) := by
  unfold k0_pay6
  refine Eq.trans (concatenate_apply_piece (t := S13x7168) 0 _ _ _ 4 ?hk S3x7168 ?x1 ?hxk rfl 10 ?hpre (ix2 j r) ?hi ?ha) ?fin
  case hxk => exact rfl
  case hk => simp
  case hpre => rfl
  case hi =>
    intro b hb
    match b with
    | ⟨0, _⟩ => exact absurd rfl hb
    | ⟨1, _⟩ => rfl
  case ha => rfl
  case fin =>
    rw [slice2_axis0_eq, transpose_ix2_apply, shapeCast_self]

theorem pay7_eq_pay6 (x : Vec Ideal S7168x13 .f32) : k0_pay7 x = k0_pay6 x := rfl

/-! ## Blocks of rows, single rows, and the sums -/

/-- Rows 0 to 3 of the regrouped matrix, as a block: box 1, channels 0 to 3. -/
def blkA (x : Vec Ideal S7168x13 .f32) : FVec Ideal S4x7168 .f32 :=
  fun i => x (ix2 (i 1) ⟨(i 0).val, Nat.lt_of_lt_of_le (idx2_lt0 i) (by decide)⟩)

/-- Rows 4 to 7 of the regrouped matrix, as a block: box 2, channels 5 to 8. -/
def blkB (x : Vec Ideal S7168x13 .f32) : FVec Ideal S4x7168 .f32 :=
  fun i => x (ix2 (i 1) ⟨5 + (i 0).val, by have := idx2_lt0 i; omega⟩)

theorem pay9_eq (x : Vec Ideal S7168x13 .f32) : k0_pay9 x = blkA x := by
  funext i
  obtain ⟨j, r, rfl⟩ : ∃ j r, i = ix2 j r := ⟨_, _, eq_ix2 i⟩
  unfold k0_pay9
  exact (slice2_axis0_apply (n0 := 13) (n1 := 7168) (m := 4) 0 _ _ j r ⟨j.val, by omega⟩ (Nat.zero_add _).symm).trans (pay6_piece0 x j r)

theorem pay10_eq (x : Vec Ideal S7168x13 .f32) : k0_pay10 x = blkB x := by
  funext i
  obtain ⟨j, r, rfl⟩ : ∃ j r, i = ix2 j r := ⟨_, _, eq_ix2 i⟩
  unfold k0_pay10
  exact (slice2_axis0_eq 4 _ _ j r).trans (pay6_piece1 x j r)

theorem pay11_eq (x : Vec Ideal S7168x13 .f32) : k0_pay11 x = blkA x := pay9_eq x
theorem pay12_eq (x : Vec Ideal S7168x13 .f32) : k0_pay12 x = blkB x := pay10_eq x

/-- One row of a matrix of 7168 columns, cut out and flattened, reads the matrix along that row. -/
theorem row_cast {n : Nat} (k : Nat) (hk : k < n) (v : (⟨2, ![n, 7168]⟩ : Shape).Idx → Ideal .f32)
    (h : (⟨2, ![n, 7168]⟩ : Shape).Slices ![k, 0] S1x7168) (h' : S1x7168.ShapeCasts S7168) :
    shapeCast S7168 (extractStridedSlice S1x7168 ![k, 0] v h) h' = fun j => v (ix2 ⟨k, hk⟩ (j 0)) := by
  funext j
  obtain ⟨r, rfl⟩ : ∃ r, j = ix1 r := ⟨_, eq_ix1 j⟩
  rw [shapeCast_1a_a_apply, slice2_axis0_eq]
  rfl

/-- Two rows of a four-row block, from row `o` on. -/
theorem rows2 (o : Nat) (ho : o + 2 ≤ 4) (v : FVec Ideal S4x7168 .f32) (h : S4x7168.Slices ![o, 0] S2x7168) :
    extractStridedSlice S2x7168 ![o, 0] v h = fun i => v (ix2 ⟨o + (i 0).val, by have := idx2_lt0 i; omega⟩ (i 1)) := by
  funext i
  obtain ⟨a, r, rfl⟩ : ∃ a r, i = ix2 a r := ⟨_, _, eq_ix2 i⟩
  exact slice2_axis0_eq o v h a r

/-- A sum over the two rows of a two-row matrix, column by column. -/
theorem sum2 (w : FVec Ideal S2x7168 .f32) (h : S2x7168.Reduces [0] S7168) (hφ : FTy.f32 = FTy.f32 ∨ FTy.f32 = FTy.bf16)
    (hacc : @Eq (BitVec FTy.f32.bits) 0x00000000#32 0x00000000#32) :
    multiReduction .add [0] S7168 w 0x00000000#32 h hφ hacc = fun j => w (ix2 0 (j 0)) + w (ix2 1 (j 0)) := by
  funext j
  have e : ∀ k : Fin 2, h.lift j k = ix2 k (j 0) := fun k => by
    funext a
    match a with
    | ⟨0, _⟩ => exact Fin.ext rfl
    | ⟨1, _⟩ => exact Fin.ext rfl
  refine (Ideal.multiReduction_add_single w _ h hφ hacc j).trans ?_
  refine (Fin.sum_univ_two (fun k : Fin 2 => w (h.lift j k))).trans ?_
  exact congrArg₂ (· + ·) (congrArg w (e 0)) (congrArg w (e 1))

/-- The sum of a vector of 7168 entries, taken as the body takes it: the vector as one row, that row summed, the one
    entry of the result read out. -/
theorem rowTotal (v : FVec Ideal S1x7168 .f32) (h : S1x7168.Reduces [1] S1) (hφ) (hacc) (h1 : S1.ShapeCasts S1x1) (hp) :
    extractAt ![0, 0] (shapeCast S1x1 (multiReduction .add [1] S1 v 0x00000000#32 h hφ hacc) h1) hp
      = ∑ r : Fin 7168, v (ix2 0 r) := by
  unfold extractAt shapeCast
  rw [Ideal.multiReduction_add_total _ _ _ (fun b => by match b with | ⟨0, _⟩ => rfl), sum_idx2, Fin.sum_univ_one]

/-! ## The two intersections over union, cell by cell -/

/-- One row of a four-row block, flattened and scaled by a constant. -/
theorem scaled_row (k : Nat) (hk : k < 4) (v : FVec Ideal S4x7168 .f32) (c : BitVec 32)
    (h : S4x7168.Slices ![k, 0] S1x7168) (h' : S1x7168.ShapeCasts S7168) :
    mulf (shapeCast S7168 (extractStridedSlice S1x7168 ![k, 0] v h) h') (broadcast S7168 (Scalar.ofBits .f32 c))
      = fun j => v (ix2 ⟨k, hk⟩ (j 0)) * lit c := by
  rw [row_cast k hk]; rfl

theorem pay19_eq (v : FVec Ideal S4x7168 .f32) : k0_pay19 v = fun j => v (ix2 0 (j 0)) * c64 := by
  unfold k0_pay19; exact scaled_row 0 (by omega) v _ _ _
theorem pay29_eq (v : FVec Ideal S4x7168 .f32) : k0_pay29 v = fun j => v (ix2 0 (j 0)) * c64 := by
  unfold k0_pay29; exact scaled_row 0 (by omega) v _ _ _
theorem pay33_eq (v : FVec Ideal S4x7168 .f32) : k0_pay33 v = fun j => v (ix2 0 (j 0)) * c64 := by
  unfold k0_pay33; exact scaled_row 0 (by omega) v _ _ _
theorem pay20_eq (v : FVec Ideal S4x7168 .f32) : k0_pay20 v = fun j => v (ix2 1 (j 0)) * c64 := by
  unfold k0_pay20; exact scaled_row 1 (by omega) v _ _ _
theorem pay30_eq (v : FVec Ideal S4x7168 .f32) : k0_pay30 v = fun j => v (ix2 1 (j 0)) * c64 := by
  unfold k0_pay30; exact scaled_row 1 (by omega) v _ _ _
theorem pay34_eq (v : FVec Ideal S4x7168 .f32) : k0_pay34 v = fun j => v (ix2 1 (j 0)) * c64 := by
  unfold k0_pay34; exact scaled_row 1 (by omega) v _ _ _
theorem pay21_eq (v : FVec Ideal S4x7168 .f32) : k0_pay21 v = fun j => v (ix2 2 (j 0)) * c448 := by
  unfold k0_pay21; exact scaled_row 2 (by omega) v _ _ _
theorem pay31_eq (v : FVec Ideal S4x7168 .f32) : k0_pay31 v = fun j => v (ix2 2 (j 0)) * c448 := by
  unfold k0_pay31; exact scaled_row 2 (by omega) v _ _ _
theorem pay35_eq (v : FVec Ideal S4x7168 .f32) : k0_pay35 v = fun j => v (ix2 2 (j 0)) * c448 := by
  unfold k0_pay35; exact scaled_row 2 (by omega) v _ _ _
theorem pay22_eq (v : FVec Ideal S4x7168 .f32) : k0_pay22 v = fun j => v (ix2 3 (j 0)) * c448 := by
  unfold k0_pay22; exact scaled_row 3 (by omega) v _ _ _
theorem pay32_eq (v : FVec Ideal S4x7168 .f32) : k0_pay32 v = fun j => v (ix2 3 (j 0)) * c448 := by
  unfold k0_pay32; exact scaled_row 3 (by omega) v _ _ _
theorem pay36_eq (v : FVec Ideal S4x7168 .f32) : k0_pay36 v = fun j => v (ix2 3 (j 0)) * c448 := by
  unfold k0_pay36; exact scaled_row 3 (by omega) v _ _ _

theorem pay13_eq (x : Vec Ideal S7168x13 .f32) : k0_pay13 x = fun j => rowOf x (j 0) 0 * c64 := by
  unfold k0_pay13
  refine (scaled_row 0 (by omega) _ _ _ _).trans ?_
  rw [pay9_eq]; rfl
theorem pay14_eq (x : Vec Ideal S7168x13 .f32) : k0_pay14 x = fun j => rowOf x (j 0) 1 * c64 := by
  unfold k0_pay14
  refine (scaled_row 1 (by omega) _ _ _ _).trans ?_
  rw [pay9_eq]; rfl
theorem pay15_eq (x : Vec Ideal S7168x13 .f32) : k0_pay15 x = fun j => rowOf x (j 0) 2 * c448 := by
  unfold k0_pay15
  refine (scaled_row 2 (by omega) _ _ _ _).trans ?_
  rw [pay9_eq]; rfl
theorem pay16_eq (x : Vec Ideal S7168x13 .f32) : k0_pay16 x = fun j => rowOf x (j 0) 3 := by
  unfold k0_pay16
  refine (row_cast 3 (by omega) _ _ _).trans ?_
  rw [pay9_eq]; rfl

/-- The body's first intersection over union is, cell by cell, that of the first box pair. -/
theorem bIou1_eq (x0 x1 : Vec Ideal S7168x13 .f32) :
    bIou1 x0 x1 = fun j => iou1 (rowOf x0 (j 0)) (rowOf x1 (j 0)) := by
  unfold bIou1
  simp only [pay11_eq, pay13_eq, pay14_eq, pay15_eq, pay16_eq]
  unfold k0_pay28 k0_pay27 k0_pay26 k0_pay25 k0_pay24 k0_pay23 k0_pay18 k0_pay17
  simp only [pay19_eq, pay20_eq, pay21_eq, pay22_eq]
  rfl

/-- The body's second intersection over union is that of the second box pair. -/
theorem bIou2_eq (x0 x1 : Vec Ideal S7168x13 .f32) :
    bIou2 x0 x1 = fun j => iou2 (rowOf x0 (j 0)) (rowOf x1 (j 0)) := by
  unfold bIou2
  simp only [pay10_eq, pay12_eq]
  unfold k0_pay39 k0_pay37 k0_pay38
  simp only [pay29_eq, pay30_eq, pay31_eq, pay32_eq, pay33_eq, pay34_eq, pay35_eq, pay36_eq]
  rfl

/-! ## The mask, the block sums and the four accumulators -/

/-- Row 8 of the regrouped matrix, flattened: channel 4, the first confidence. -/
theorem row8_eq (x : Vec Ideal S7168x13 .f32) (h : S13x7168.Slices ![8, 0] S1x7168) (h' : S1x7168.ShapeCasts S7168) :
    shapeCast S7168 (extractStridedSlice S1x7168 ![8, 0] (k0_pay6 x) h) h' = fun j => rowOf x (j 0) 4 := by
  rw [row_cast 8 (by omega)]
  funext j
  exact pay6_row8 x (j 0)

/-- Row 9 of the regrouped matrix, flattened: channel 9, the second confidence. -/
theorem row9_eq (x : Vec Ideal S7168x13 .f32) (h : S13x7168.Slices ![9, 0] S1x7168) (h' : S1x7168.ShapeCasts S7168) :
    shapeCast S7168 (extractStridedSlice S1x7168 ![9, 0] (k0_pay6 x) h) h' = fun j => rowOf x (j 0) 9 := by
  rw [row_cast 9 (by omega)]
  funext j
  exact pay6_row9 x (j 0)

/-- The body's mask: 1 on the cells whose target confidence is above 0. -/
theorem pay8_eq (x : Vec Ideal S7168x13 .f32) : k0_pay8 x = fun j => mask (rowOf x (j 0)) := by
  unfold k0_pay8
  refine (sitofp_extui_eq_uitofp _ _).trans ?_
  rw [pay7_eq_pay6, row8_eq]
  rfl

/-- Adding one number to every entry of an accumulator block. -/
theorem acc_add (s : Ideal .f32) (a : Vec Ideal S1x8x128 .f32) (h : S1x8x128.ShapeCasts S1x8x128) :
    addf (shapeCast S1x8x128 a h) (broadcast S1x8x128 s) = fun y => a y + s := by
  rw [shapeCast_self]; rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {n0 n1 n2 : Nat} (f : (⟨3, ![n0, n1, n2]⟩ : Shape).Idx → EReal) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum of a [1, 3, 7168] array over its last two axes, taken as the body takes it, is the sum over the 7168 columns
    of the sum over the three rows. -/
theorem clsTotal (w : FVec Ideal S1x3x7168 .f32) (h : S1x3x7168.Reduces [1, 2] S1) (hφ) (hacc)
    (h1 : S1.ShapeCasts S1x1x1) (hp) :
    extractAt ![0, 0, 0] (shapeCast S1x1x1 (multiReduction .add [1, 2] S1 w 0x00000000#32 h hφ hacc) h1) hp
      = ∑ r : Fin 7168, ∑ k : Fin 3, w (ix3 0 k r) := by
  unfold extractAt shapeCast
  rw [Ideal.multiReduction_add_total _ _ _ (fun b => by match b with | ⟨0, _⟩ => rfl), sum_idx3, Fin.sum_univ_one]
  exact Finset.sum_comm

/-- The block's localisation sum is the sum of the cells' localisation terms. -/
theorem bLoc_eq (x0 x1 : Vec Ideal S7168x13 .f32) :
    bLoc x0 x1 = ∑ r : Fin 7168, locTerm (rowOf x0 r) (rowOf x1 r) := by
  unfold bLoc
  rw [pay8_eq, pay9_eq, pay10_eq, pay11_eq, pay12_eq, bIou1_eq, bIou2_eq]
  unfold k0_pay43
  refine (rowTotal _ _ _ _ _ _).trans (Finset.sum_congr rfl fun r _ => ?_)
  refine (shapeCast_a_1a_apply _ _ 0 r).trans ?_
  unfold k0_pay40 k0_pay41 k0_pay42
  simp only [rows2 0 (by omega), rows2 2 (by omega)]
  rw [sum2, sum2, sum2, sum2]
  rfl

theorem bOut2_eq (x0 x1 : Vec Ideal S7168x13 .f32) (a : Vec Ideal S1x8x128 .f32) :
    bOut2 x0 x1 a = fun y => a y + ∑ r : Fin 7168, locTerm (rowOf x0 r) (rowOf x1 r) := by
  unfold bOut2 k0_pay46
  rw [bLoc_eq]
  exact acc_add _ a _

theorem bOut3_eq (x0 x1 : Vec Ideal S7168x13 .f32) (a : Vec Ideal S1x8x128 .f32) :
    bOut3 x0 x1 a = fun y => a y + ∑ r : Fin 7168, objTerm (rowOf x0 r) (rowOf x1 r) := by
  unfold bOut3 k0_pay47
  refine (acc_add _ a _).trans (funext fun y => congrArg (a y + ·) ?_)
  refine (rowTotal _ _ _ _ _ _).trans (Finset.sum_congr rfl fun r _ => ?_)
  unfold bObj
  rw [pay8_eq, bIou1_eq, bIou2_eq]
  unfold k0_pay44
  refine (shapeCast_a_1a_apply _ _ 0 r).trans ?_
  unfold k0_pay42
  simp only [row8_eq, row9_eq]
  rfl

theorem bOut4_eq (x0 x1 : Vec Ideal S7168x13 .f32) (a : Vec Ideal S1x8x128 .f32) :
    bOut4 x0 x1 a = fun y => a y + ∑ r : Fin 7168, ∑ k : Fin 3, clsTerm (rowOf x0 r) (rowOf x1 r) k := by
  unfold bOut4 k0_pay48
  refine (acc_add _ a _).trans (funext fun y => congrArg (a y + ·) ?_)
  refine (clsTotal _ _ _ _ _ _).trans (Finset.sum_congr rfl fun r _ => Finset.sum_congr rfl fun k _ => ?_)
  refine (shapeCast_ab_1ab_apply _ _ 0 k r).trans ?_
  simp only [mulf_apply, subf_apply, broadcastTo_1b_ab_apply, shapeCast_a_1a_apply, slice2_axis0_eq,
    pay7_eq_pay6, pay6_piece4, pay8_eq]
  rfl

theorem bOut5_eq (x1 : Vec Ideal S7168x13 .f32) (a : Vec Ideal S1x8x128 .f32) :
    bOut5 x1 a = fun y => a y + ∑ r : Fin 7168, mask (rowOf x1 r) := by
  unfold bOut5 k0_pay1 k0_pay45
  refine (acc_add _ a _).trans (funext fun y => congrArg (a y + ·) ?_)
  refine (rowTotal _ _ _ _ _ _).trans (Finset.sum_congr rfl fun r _ => ?_)
  rw [shapeCast_a_1a_apply, pay8_eq]

end Cert.Yolo

end
-- ==== Proof.RefLayout.lean ====
/-
  The reference's layout operations, read at a cell.

  The reference reaches a channel of the [32768, 7, 7, 13] arrays in one of four ways: one channel
  cut out and the unit axis dropped; a box of four channels cut out, one of them cut out of that,
  and the unit axis dropped; two channels of a box kept side by side on a fourth axis; and the
  three class channels kept side by side. The object mask goes the other way: it is stretched over
  a new unit axis and then over the three classes. Each lemma here says which element of the
  array such a chain reads, at any arrays of these shapes and any offsets.
-/
import Idealize.ShloMosaic.Lib.Pipeline.Value
import Idealize.ShloMosaic.Lib.ValueIdx

namespace Cert.Yolo

open Idealize.ShloMosaic Idealize.ShloMosaic.ValueIdx

/-- The grid of cells: 32768 images of 7 by 7 cells. -/
abbrev Cells : Shape := ⟨3, ![32768, 7, 7]⟩
/-- The grid of cells with `n` channels per cell. -/
abbrev Chans (n : Nat) : Shape := ⟨4, ![32768, 7, 7, n]⟩

variable {α : Type}

/-- Dropping the unit axis: the reshape of a one-channel array reads that channel of the same cell. -/
theorem dropUnit_apply (y : (Chans 1).Idx → α) (h : (Chans 1).ShapeCasts Cells) (j : Cells.Idx) :
    shapeCast Cells y h j = y (ix4 (j 0) (j 1) (j 2) (0 : Fin 1)) := by
  refine shapeCast_apply y h j _ ?_
  rw [Shape.rowMajor_val_four, Shape.rowMajor_val_three]
  show (((j 0).val * 7 + (j 1).val) * 7 + (j 2).val) * 1 + 0 = ((j 0).val * 7 + (j 1).val) * 7 + (j 2).val
  omega

/-- A slice along the channel axis: channel `k` of the slice is channel `c = o + k` of the array. -/
theorem chanSlice_apply {n m : Nat} (o : Nat) (x : (Chans n).Idx → α) (h : (Chans n).Slices ![0, 0, 0, o] (Chans m))
    (i : (Chans m).Idx) (c : Fin n) (hc : c.val = o + (i 3).val) :
    extractStridedSlice (Chans m) ![0, 0, 0, o] x h i = x (ix4 (i 0) (i 1) (i 2) c) :=
  extractStridedSlice_apply ![0, 0, 0, o] x h i _ (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show c.val = o + (i 3).val; exact hc)

/-- One channel cut out and the unit axis dropped: channel `c = o` of cell `j`. -/
theorem chan1_apply (o : Nat) (x : (Chans 13).Idx → α) (h1 : (Chans 13).Slices ![0, 0, 0, o] (Chans 1))
    (h2 : (Chans 1).ShapeCasts Cells) (c : Fin 13) (hc : c.val = o) (j : Cells.Idx) :
    shapeCast Cells (extractStridedSlice (Chans 1) ![0, 0, 0, o] x h1) h2 j = x (ix4 (j 0) (j 1) (j 2) c) :=
  (dropUnit_apply _ h2 j).trans (chanSlice_apply o x h1 _ c (by show c.val = o + 0; omega))

/-- A box of four channels cut out at `o1`, channel `o2` of the box cut out of that, and the unit axis dropped:
    channel `c = o1 + o2` of cell `j`. -/
theorem chan2_apply (o1 o2 : Nat) (x : (Chans 13).Idx → α) (h1 : (Chans 13).Slices ![0, 0, 0, o1] (Chans 4))
    (h2 : (Chans 4).Slices ![0, 0, 0, o2] (Chans 1)) (h3 : (Chans 1).ShapeCasts Cells)
    (b : Fin 4) (hb : b.val = o2) (c : Fin 13) (hc : c.val = o1 + o2) (j : Cells.Idx) :
    shapeCast Cells (extractStridedSlice (Chans 1) ![0, 0, 0, o2] (extractStridedSlice (Chans 4) ![0, 0, 0, o1] x h1) h2) h3 j
      = x (ix4 (j 0) (j 1) (j 2) c) :=
  ((dropUnit_apply _ h3 j).trans (chanSlice_apply o2 _ h2 _ b (by show b.val = o2 + 0; omega))).trans
    (chanSlice_apply o1 x h1 _ c (by show c.val = o1 + b.val; omega))

/-- A box of four channels cut out at `o1` and `m` channels of the box kept from `o2` on: channel `k` of the
    result is channel `c = o1 + o2 + k` of the array. -/
theorem box2_apply {m : Nat} (o1 o2 : Nat) (x : (Chans 13).Idx → α) (h1 : (Chans 13).Slices ![0, 0, 0, o1] (Chans 4))
    (h2 : (Chans 4).Slices ![0, 0, 0, o2] (Chans m)) (i : (Chans m).Idx)
    (b : Fin 4) (hb : b.val = o2 + (i 3).val) (c : Fin 13) (hc : c.val = o1 + o2 + (i 3).val) :
    extractStridedSlice (Chans m) ![0, 0, 0, o2] (extractStridedSlice (Chans 4) ![0, 0, 0, o1] x h1) h2 i
      = x (ix4 (i 0) (i 1) (i 2) c) :=
  (chanSlice_apply o2 _ h2 i b hb).trans (chanSlice_apply o1 x h1 _ c (by show c.val = o1 + b.val; omega))

/-- The mask stretched over a new unit axis and then over `m` channels reads the mask of the cell. -/
theorem stretch_apply {m : Nat} (y : Cells.Idx → α) (d1 : Fin 3 → Fin 4) (hd1 : d1 = ![0, 1, 2])
    (h1 : Cells.BroadcastsInDim (Chans 1) d1) (d2 : Fin 4 → Fin 4) (hd2 : d2 = ![0, 1, 2, 3])
    (h2 : (Chans 1).BroadcastsInDim (Chans m) d2) (i : (Chans m).Idx) :
    broadcastInDim (Chans m) d2 h2 (broadcastInDim (Chans 1) d1 h1 y) i = y (ix3 (i 0) (i 1) (i 2)) := by
  subst hd1 hd2
  refine (broadcastInDim_apply _ h2 _ i (ix4 (i 0) (i 1) (i 2) (0 : Fin 1)) (fun a => match a with
    | ⟨0, _⟩ => by show (i 0).val = if (32768 : Nat) = 1 then 0 else (i 0).val; rw [if_neg (by decide)]
    | ⟨1, _⟩ => by show (i 1).val = if (7 : Nat) = 1 then 0 else (i 1).val; rw [if_neg (by decide)]
    | ⟨2, _⟩ => by show (i 2).val = if (7 : Nat) = 1 then 0 else (i 2).val; rw [if_neg (by decide)]
    | ⟨3, _⟩ => by show 0 = if (1 : Nat) = 1 then 0 else (i 3).val; rw [if_pos rfl])).trans ?_
  exact broadcastInDim_apply _ h1 y _ (ix3 (i 0) (i 1) (i 2)) (fun a => match a with
    | ⟨0, _⟩ => by show (i 0).val = if (32768 : Nat) = 1 then 0 else (i 0).val; rw [if_neg (by decide)]
    | ⟨1, _⟩ => by show (i 1).val = if (7 : Nat) = 1 then 0 else (i 1).val; rw [if_neg (by decide)]
    | ⟨2, _⟩ => by show (i 2).val = if (7 : Nat) = 1 then 0 else (i 2).val; rw [if_neg (by decide)])

/-- `box2_apply` with the channel written out: channel `k` of the result is channel `o1 + o2 + k` of the array. -/
theorem box2_read {m : Nat} (o1 o2 : Nat) (x : (Chans 13).Idx → α) (h1 : (Chans 13).Slices ![0, 0, 0, o1] (Chans 4))
    (h2 : (Chans 4).Slices ![0, 0, 0, o2] (Chans m)) (hm : o2 + m ≤ 4) (hm' : o1 + 4 ≤ 13) (i : (Chans m).Idx) :
    extractStridedSlice (Chans m) ![0, 0, 0, o2] (extractStridedSlice (Chans 4) ![0, 0, 0, o1] x h1) h2 i
      = x (ix4 (i 0) (i 1) (i 2) ⟨o1 + o2 + (i 3).val, by have h : (i 3).val < m := (i 3).isLt; omega⟩) :=
  box2_apply o1 o2 x h1 h2 i ⟨o2 + (i 3).val, by have h : (i 3).val < m := (i 3).isLt; omega⟩ rfl _ rfl

/-- `m` channels cut out of the array at `o`: channel `k` of the result is channel `o + k` of the array. -/
theorem slice1_read {m : Nat} (o : Nat) (x : (Chans 13).Idx → α) (h : (Chans 13).Slices ![0, 0, 0, o] (Chans m))
    (hm : o + m ≤ 13) (i : (Chans m).Idx) :
    extractStridedSlice (Chans m) ![0, 0, 0, o] x h i
      = x (ix4 (i 0) (i 1) (i 2) ⟨o + (i 3).val, by have h : (i 3).val < m := (i 3).isLt; omega⟩) :=
  chanSlice_apply o x h i _ rfl

/-- An index of the cells with `m` channels is a cell and a channel … -/
def cellChanEquiv (m : Nat) : (Chans m).Idx ≃ Cells.Idx × Fin m where
  toFun i := (ix3 (i 0) (i 1) (i 2), i 3)
  invFun p := ix4 (p.1 0) (p.1 1) (p.1 2) p.2
  left_inv i := (eq_ix4 i).symm
  right_inv p := Prod.ext (eq_ix3 p.1).symm rfl

/-- … so a sum over all channels of all cells is the sum over the cells of the sum over the channels. -/
theorem sum_cells_chans {M : Type*} [AddCommMonoid M] (m : Nat) (f : (Chans m).Idx → M) :
    ∑ i, f i = ∑ j : Cells.Idx, ∑ k : Fin m, f (ix4 (j 0) (j 1) (j 2) k) := by
  rw [← Equiv.sum_comp (cellChanEquiv m).symm f, Fintype.sum_prod_type]
  rfl

end Cert.Yolo
-- ==== Proof.RefCell.lean ====
/-
  The reference's three results, read cell by cell.

  The reference slices the thirteen channels out of the [32768, 7, 7, 13] arrays, computes the
  loss terms of every cell side by side, and sums each over all cells. Read at the ideal values,
  each sum is the sum over the cells of the scalar cell functions of `Cell.lean`.
-/
import proofs.«408613_j41755672051846_3_alg».proof.Proof.RefStages
import proofs.«408613_j41755672051846_3_alg».proof.Proof.Cell
import proofs.«408613_j41755672051846_3_alg».proof.Proof.RefLayout
import Idealize.ShloMosaic.Lib.Pipeline.Value
import Idealize.ShloMosaic.Lib.ValueLayout
import Idealize.ShloMosaic.PureOps.Ideal.Laws

noncomputable section

namespace Cert.Yolo

open Idealize.ShloMosaic Idealize.ShloMosaic.ValueIdx Cert.ReferenceIdeal Cert.ReferenceIdeal.Stages

/-- Cell `j` of a [32768, 7, 7, 13] array: its thirteen channels. -/
def cellOf (x : S32768x7x7x13.Idx → Ideal .f32) (j : S32768x7x7.Idx) : Fin 13 → Ideal .f32 :=
  fun k => x (ix4 (j 0) (j 1) (j 2) k)

/-! ## The channels the reference reads

Every channel the reference uses is reached through one of the chains of `RefLayout.lean`; each stage below is
that chain at its literal offsets. -/

section Reads
variable (x0 x1 : (⟨S32768x7x7x13, .f32⟩ : BufTy).Contents (Elt Ideal)) (j : S32768x7x7.Idx)

theorem v1_read : val_main_v1 (F := Ideal) x1 j = cellOf x1 j 4 := chan1_apply 4 x1 _ _ 4 rfl j
theorem v192_read : val_main_v192 (F := Ideal) x0 j = cellOf x0 j 4 := chan1_apply 4 x0 _ _ 4 rfl j
theorem v194_read : val_main_v194 (F := Ideal) x0 j = cellOf x0 j 9 := chan1_apply 9 x0 _ _ 9 rfl j
theorem v10_read : val_main_v10 (F := Ideal) x0 j = cellOf x0 j 0 := chan2_apply 0 0 x0 _ _ _ 0 rfl 0 rfl j
theorem v14_read : val_main_v14 (F := Ideal) x0 j = cellOf x0 j 1 := chan2_apply 0 1 x0 _ _ _ 1 rfl 1 rfl j
theorem v18_read : val_main_v18 (F := Ideal) x0 j = cellOf x0 j 2 := chan2_apply 0 2 x0 _ _ _ 2 rfl 2 rfl j
theorem v22_read : val_main_v22 (F := Ideal) x0 j = cellOf x0 j 3 := chan2_apply 0 3 x0 _ _ _ 3 rfl 3 rfl j
theorem v26_read : val_main_v26 (F := Ideal) x1 j = cellOf x1 j 0 := chan2_apply 0 0 x1 _ _ _ 0 rfl 0 rfl j
theorem v30_read : val_main_v30 (F := Ideal) x1 j = cellOf x1 j 1 := chan2_apply 0 1 x1 _ _ _ 1 rfl 1 rfl j
theorem v34_read : val_main_v34 (F := Ideal) x1 j = cellOf x1 j 2 := chan2_apply 0 2 x1 _ _ _ 2 rfl 2 rfl j
theorem v38_read : val_main_v38 (F := Ideal) x1 j = cellOf x1 j 3 := chan2_apply 0 3 x1 _ _ _ 3 rfl 3 rfl j
theorem v83_read : val_main_v83 (F := Ideal) x0 j = cellOf x0 j 5 := chan2_apply 5 0 x0 _ _ _ 0 rfl 5 rfl j
theorem v87_read : val_main_v87 (F := Ideal) x0 j = cellOf x0 j 6 := chan2_apply 5 1 x0 _ _ _ 1 rfl 6 rfl j
theorem v91_read : val_main_v91 (F := Ideal) x0 j = cellOf x0 j 7 := chan2_apply 5 2 x0 _ _ _ 2 rfl 7 rfl j
theorem v95_read : val_main_v95 (F := Ideal) x0 j = cellOf x0 j 8 := chan2_apply 5 3 x0 _ _ _ 3 rfl 8 rfl j
theorem v99_read : val_main_v99 (F := Ideal) x1 j = cellOf x1 j 5 := chan2_apply 5 0 x1 _ _ _ 0 rfl 5 rfl j
theorem v103_read : val_main_v103 (F := Ideal) x1 j = cellOf x1 j 6 := chan2_apply 5 1 x1 _ _ _ 1 rfl 6 rfl j
theorem v107_read : val_main_v107 (F := Ideal) x1 j = cellOf x1 j 7 := chan2_apply 5 2 x1 _ _ _ 2 rfl 7 rfl j
theorem v111_read : val_main_v111 (F := Ideal) x1 j = cellOf x1 j 8 := chan2_apply 5 3 x1 _ _ _ 3 rfl 8 rfl j

variable (i : S32768x7x7x2.Idx)
theorem v155_read : val_main_v155 (F := Ideal) x1 i
    = x1 (ix4 (i 0) (i 1) (i 2) ⟨0 + 0 + (i 3).val, by have h : (i 3).val < 2 := (i 3).isLt; omega⟩) :=
  box2_read 0 0 x1 _ _ (by decide) (by decide) i
theorem v156_read : val_main_v156 (F := Ideal) x1 i
    = x1 (ix4 (i 0) (i 1) (i 2) ⟨0 + 0 + (i 3).val, by have h : (i 3).val < 2 := (i 3).isLt; omega⟩) :=
  box2_read 0 0 x1 _ _ (by decide) (by decide) i
theorem v159_read : val_main_v159 (F := Ideal) x1 i
    = x1 (ix4 (i 0) (i 1) (i 2) ⟨5 + 0 + (i 3).val, by have h : (i 3).val < 2 := (i 3).isLt; omega⟩) :=
  box2_read 5 0 x1 _ _ (by decide) (by decide) i
theorem v160_read : val_main_v160 (F := Ideal) x1 i
    = x1 (ix4 (i 0) (i 1) (i 2) ⟨5 + 0 + (i 3).val, by have h : (i 3).val < 2 := (i 3).isLt; omega⟩) :=
  box2_read 5 0 x1 _ _ (by decide) (by decide) i
theorem v163_read : val_main_v163 (F := Ideal) x0 i
    = x0 (ix4 (i 0) (i 1) (i 2) ⟨0 + 0 + (i 3).val, by have h : (i 3).val < 2 := (i 3).isLt; omega⟩) :=
  box2_read 0 0 x0 _ _ (by decide) (by decide) i
theorem v169_read : val_main_v169 (F := Ideal) x0 i
    = x0 (ix4 (i 0) (i 1) (i 2) ⟨0 + 2 + (i 3).val, by have h : (i 3).val < 2 := (i 3).isLt; omega⟩) :=
  box2_read 0 2 x0 _ _ (by decide) (by decide) i
theorem v170_read : val_main_v170 (F := Ideal) x1 i
    = x1 (ix4 (i 0) (i 1) (i 2) ⟨0 + 2 + (i 3).val, by have h : (i 3).val < 2 := (i 3).isLt; omega⟩) :=
  box2_read 0 2 x1 _ _ (by decide) (by decide) i
theorem v177_read : val_main_v177 (F := Ideal) x0 i
    = x0 (ix4 (i 0) (i 1) (i 2) ⟨5 + 0 + (i 3).val, by have h : (i 3).val < 2 := (i 3).isLt; omega⟩) :=
  box2_read 5 0 x0 _ _ (by decide) (by decide) i
theorem v183_read : val_main_v183 (F := Ideal) x0 i
    = x0 (ix4 (i 0) (i 1) (i 2) ⟨5 + 2 + (i 3).val, by have h : (i 3).val < 2 := (i 3).isLt; omega⟩) :=
  box2_read 5 2 x0 _ _ (by decide) (by decide) i
theorem v184_read : val_main_v184 (F := Ideal) x1 i
    = x1 (ix4 (i 0) (i 1) (i 2) ⟨5 + 2 + (i 3).val, by have h : (i 3).val < 2 := (i 3).isLt; omega⟩) :=
  box2_read 5 2 x1 _ _ (by decide) (by decide) i

variable (q : S32768x7x7x3.Idx)
theorem v216_read : val_main_v216 (F := Ideal) x0 q
    = x0 (ix4 (q 0) (q 1) (q 2) ⟨10 + (q 3).val, by have h : (q 3).val < 3 := (q 3).isLt; omega⟩) :=
  slice1_read 10 x0 _ (by decide) q
theorem v217_read : val_main_v217 (F := Ideal) x1 q
    = x1 (ix4 (q 0) (q 1) (q 2) ⟨10 + (q 3).val, by have h : (q 3).val < 3 := (q 3).isLt; omega⟩) :=
  slice1_read 10 x1 _ (by decide) q
theorem v220_read : val_main_v220 (F := Ideal) x1 q = val_main_v4 (F := Ideal) x1 (ix3 (q 0) (q 1) (q 2)) :=
  stretch_apply _ _ rfl _ _ rfl _ q

end Reads

/-! ## The terms of one cell -/

section Cells
variable (x0 x1 : (⟨S32768x7x7x13, .f32⟩ : BufTy).Contents (Elt Ideal)) (j : S32768x7x7.Idx)

/-- The object mask of cell `j`. -/
theorem v4_cell : val_main_v4 (F := Ideal) x1 j = mask (cellOf x1 j) := by
  simp only [val_main_v4_apply, val_main_v3_apply, val_main_v2_apply, val_main_cst_apply, v1_read]
  rfl

/-- The first box's intersection over union at cell `j`. -/
theorem v81_cell : val_main_v81 (F := Ideal) x0 x1 j = iou1 (cellOf x0 j) (cellOf x1 j) := by
  simp only [
    val_main_v81_apply, val_main_v71_apply, val_main_v69_apply, val_main_v61_apply, val_main_v57_apply,
    val_main_v12_apply, val_main_v11_apply, val_main_cst_0_apply, val_main_v56_apply, val_main_v20_apply,
    val_main_v19_apply, val_main_cst_2_apply, val_main_v55_apply, val_main_cst_12_apply, val_main_v60_apply,
    val_main_v28_apply, val_main_v27_apply, val_main_cst_4_apply, val_main_v59_apply, val_main_v36_apply,
    val_main_v35_apply, val_main_cst_6_apply, val_main_v58_apply, val_main_cst_13_apply, val_main_v47_apply,
    val_main_v43_apply, val_main_v42_apply, val_main_v41_apply, val_main_cst_8_apply, val_main_v46_apply,
    val_main_v45_apply, val_main_v44_apply, val_main_cst_9_apply, val_main_v70_apply, val_main_v68_apply,
    val_main_v64_apply, val_main_v16_apply, val_main_v15_apply, val_main_cst_1_apply, val_main_v63_apply,
    val_main_v24_apply, val_main_v23_apply, val_main_cst_3_apply, val_main_v62_apply, val_main_cst_14_apply,
    val_main_v67_apply, val_main_v32_apply, val_main_v31_apply, val_main_cst_5_apply, val_main_v66_apply,
    val_main_v40_apply, val_main_v39_apply, val_main_cst_7_apply, val_main_v65_apply, val_main_cst_15_apply,
    val_main_v54_apply, val_main_v50_apply, val_main_v49_apply, val_main_v48_apply, val_main_cst_10_apply,
    val_main_v53_apply, val_main_v52_apply, val_main_v51_apply, val_main_cst_11_apply, val_main_v80_apply,
    val_main_v74_apply, val_main_v72_apply, val_main_v73_apply, val_main_v79_apply, val_main_v78_apply,
    val_main_v77_apply, val_main_v75_apply, val_main_v76_apply, val_main_call0_v1_apply, val_main_call0_v0_apply,
    val_main_cst_16_apply, val_main_call1_v1_apply, val_main_call1_v0_apply, val_main_cst_17_apply,
    v10_read, v14_read, v18_read, v22_read, v26_read, v30_read, v34_read, v38_read]
  rfl

/-- The second box's intersection over union at cell `j`. -/
theorem v154_cell : val_main_v154 (F := Ideal) x0 x1 j = iou2 (cellOf x0 j) (cellOf x1 j) := by
  simp only [
    val_main_v154_apply, val_main_v144_apply, val_main_v142_apply, val_main_v134_apply, val_main_v130_apply,
    val_main_v85_apply, val_main_v84_apply, val_main_cst_18_apply, val_main_v129_apply, val_main_v93_apply,
    val_main_v92_apply, val_main_cst_20_apply, val_main_v128_apply, val_main_cst_30_apply, val_main_v133_apply,
    val_main_v101_apply, val_main_v100_apply, val_main_cst_22_apply, val_main_v132_apply, val_main_v109_apply,
    val_main_v108_apply, val_main_cst_24_apply, val_main_v131_apply, val_main_cst_31_apply, val_main_v120_apply,
    val_main_v116_apply, val_main_v115_apply, val_main_v114_apply, val_main_cst_26_apply, val_main_v119_apply,
    val_main_v118_apply, val_main_v117_apply, val_main_cst_27_apply, val_main_v143_apply, val_main_v141_apply,
    val_main_v137_apply, val_main_v89_apply, val_main_v88_apply, val_main_cst_19_apply, val_main_v136_apply,
    val_main_v97_apply, val_main_v96_apply, val_main_cst_21_apply, val_main_v135_apply, val_main_cst_32_apply,
    val_main_v140_apply, val_main_v105_apply, val_main_v104_apply, val_main_cst_23_apply, val_main_v139_apply,
    val_main_v113_apply, val_main_v112_apply, val_main_cst_25_apply, val_main_v138_apply, val_main_cst_33_apply,
    val_main_v127_apply, val_main_v123_apply, val_main_v122_apply, val_main_v121_apply, val_main_cst_28_apply,
    val_main_v126_apply, val_main_v125_apply, val_main_v124_apply, val_main_cst_29_apply, val_main_v153_apply,
    val_main_v147_apply, val_main_v145_apply, val_main_v146_apply, val_main_v152_apply, val_main_v151_apply,
    val_main_v150_apply, val_main_v148_apply, val_main_v149_apply, val_main_call2_v1_apply, val_main_call2_v0_apply,
    val_main_cst_34_apply, val_main_call3_v1_apply, val_main_call3_v0_apply, val_main_cst_35_apply,
    v83_read, v87_read, v91_read, v95_read, v99_read, v103_read, v107_read, v111_read]
  rfl

/-- The first box's localisation error at cell `j`: each mean over two numbers starts from the literal zero,
    which adds nothing. -/
theorem v176_cell : val_main_v176 (F := Ideal) x0 x1 j = loc1 (cellOf x0 j) (cellOf x1 j) := by
  simp only [
    val_main_v176_apply, val_main_v168_apply, val_main_v166_apply, val_main_v165_apply, val_main_v164_apply,
    val_main_v158_apply, val_main_v157_apply, val_main_cst_36_apply, val_main_v167_apply, val_main_cst_37_apply,
    val_main_v175_apply, val_main_v173_apply, val_main_v172_apply, val_main_v171_apply, val_main_cst_38_apply,
    val_main_v174_apply, val_main_cst_39_apply,
    Fin.sum_univ_two, v155_read, v156_read, v163_read, v169_read, v170_read,
    Ideal.ofBits_def, Ideal.ofBits_zero_f32, zero_add]
  rfl

/-- The second box's localisation error at cell `j`. -/
theorem v190_cell : val_main_v190 (F := Ideal) x0 x1 j = loc2 (cellOf x0 j) (cellOf x1 j) := by
  simp only [
    val_main_v190_apply, val_main_v182_apply, val_main_v180_apply, val_main_v179_apply, val_main_v178_apply,
    val_main_v162_apply, val_main_v161_apply, val_main_cst_40_apply, val_main_v181_apply, val_main_cst_41_apply,
    val_main_v189_apply, val_main_v187_apply, val_main_v186_apply, val_main_v185_apply, val_main_cst_42_apply,
    val_main_v188_apply, val_main_cst_43_apply,
    Fin.sum_univ_two, v159_read, v160_read, v177_read, v183_read, v184_read,
    Ideal.ofBits_def, Ideal.ofBits_zero_f32, zero_add]
  rfl

/-- The objectness error at cell `j` when the first box is responsible. -/
theorem v200_cell : val_main_v200 (F := Ideal) x0 x1 j = obj1 (cellOf x0 j) (cellOf x1 j) := by
  simp only [
    val_main_v200_apply, val_main_v196_apply, val_main_v195_apply, val_main_v199_apply, val_main_v198_apply,
    val_main_cst_44_apply, val_main_v197_apply,
    v192_read, v194_read, v81_cell]
  rfl

/-- The objectness error at cell `j` when the second box is responsible. -/
theorem v206_cell : val_main_v206 (F := Ideal) x0 x1 j = obj2 (cellOf x0 j) (cellOf x1 j) := by
  simp only [
    val_main_v206_apply, val_main_v202_apply, val_main_v201_apply, val_main_v205_apply, val_main_v204_apply,
    val_main_cst_45_apply, val_main_v203_apply,
    v192_read, v194_read, v154_cell]
  rfl

/-- Which box is responsible at cell `j`. -/
theorem v207_cell : val_main_v207 (F := Ideal) x0 x1 j = use1 (cellOf x0 j) (cellOf x1 j) := by
  rw [val_main_v207_apply, v81_cell, v154_cell]
  rfl

/-- The localisation term of cell `j`. -/
theorem v210_cell : val_main_v210 (F := Ideal) x0 x1 j = locTerm (cellOf x0 j) (cellOf x1 j) := by
  rw [val_main_v210_apply, val_main_v208_apply, v4_cell, v207_cell, v176_cell, v190_cell]
  rfl

/-- The objectness term of cell `j`. -/
theorem v212_cell : val_main_v212 (F := Ideal) x0 x1 j = objTerm (cellOf x0 j) (cellOf x1 j) := by
  rw [val_main_v212_apply, val_main_v209_apply, v4_cell, v207_cell, v200_cell, v206_cell]
  rfl

/-- The class term of cell `j` on class `k`. -/
theorem v221_cell (k : Fin 3) :
    val_main_v221 (F := Ideal) x0 x1 (ix4 (j 0) (j 1) (j 2) k) = clsTerm (cellOf x0 j) (cellOf x1 j) k := by
  simp only [val_main_v221_apply, val_main_v219_apply, val_main_v218_apply, v216_read, v217_read, v220_read, v4_cell]
  rfl

end Cells

/-! ## The three results -/

theorem ref_loc (x0 x1 : (⟨S32768x7x7x13, .f32⟩ : BufTy).Contents (Elt Ideal)) :
    val_main_v225 (F := Ideal) x0 x1
      = fun _ => c5 * (c0 + ∑ j : S32768x7x7.Idx, locTerm (cellOf x0 j) (cellOf x1 j)) := by
  funext i
  have hsum : (∑ j : S32768x7x7.Idx, val_main_v210 (F := Ideal) x0 x1 j)
      = ∑ j : S32768x7x7.Idx, locTerm (cellOf x0 j) (cellOf x1 j) :=
    Finset.sum_congr rfl fun j _ => v210_cell x0 x1 j
  rw [val_main_v225_apply, val_main_v211_apply, hsum]
  rfl

theorem ref_obj (x0 x1 : (⟨S32768x7x7x13, .f32⟩ : BufTy).Contents (Elt Ideal)) :
    val_main_v213 (F := Ideal) x0 x1
      = fun _ => c0 + ∑ j : S32768x7x7.Idx, objTerm (cellOf x0 j) (cellOf x1 j) := by
  funext i
  have hsum : (∑ j : S32768x7x7.Idx, val_main_v212 (F := Ideal) x0 x1 j)
      = ∑ j : S32768x7x7.Idx, objTerm (cellOf x0 j) (cellOf x1 j) :=
    Finset.sum_congr rfl fun j _ => v212_cell x0 x1 j
  rw [val_main_v213_apply, hsum]
  rfl

theorem ref_cls (x0 x1 : (⟨S32768x7x7x13, .f32⟩ : BufTy).Contents (Elt Ideal)) :
    val_main_v224 (F := Ideal) x0 x1
      = fun _ => Ideal.div
          (c0 + ∑ j : S32768x7x7.Idx, ∑ k : Fin 3, clsTerm (cellOf x0 j) (cellOf x1 j) k)
          ((c0 + ∑ j : S32768x7x7.Idx, mask (cellOf x1 j)) * c3) := by
  funext i
  -- the sum over every class of every cell, cell by cell
  have hnum : (∑ q : S32768x7x7x3.Idx, val_main_v221 (F := Ideal) x0 x1 q)
      = ∑ j : S32768x7x7.Idx, ∑ k : Fin 3, clsTerm (cellOf x0 j) (cellOf x1 j) k :=
    (sum_cells_chans 3 (val_main_v221 (F := Ideal) x0 x1)).trans
      (Finset.sum_congr rfl fun j _ => Finset.sum_congr rfl fun k _ => v221_cell x0 x1 j k)
  have hden : (∑ j : S32768x7x7.Idx, val_main_v4 (F := Ideal) x1 j) = ∑ j : S32768x7x7.Idx, mask (cellOf x1 j) :=
    Finset.sum_congr rfl fun j _ => v4_cell x1 j
  rw [val_main_v224_apply, val_main_v222_apply, val_main_v223_apply, val_main_v214_apply, hnum, hden]
  rfl

end Cert.Yolo

end
-- ==== Proof.Regroup.lean ====
/-
  Regrouping a sum over consecutive naturals.

  The kernel sums the cells tile by tile: 7168 cells per grid point, 112 grid points per outer
  index, 2 outer indices; the reference sums all 1,605,632 cells at once. Addition of extended
  reals is commutative and associative, so the two groupings give one sum: a sum over
  `range (a * b)` is the sum over `i < a` of the sums over `j < b` at `i * b + j`.
-/
import Mathlib.Algebra.BigOperators.Fin
import Mathlib.Algebra.BigOperators.Group.Finset.Basic

namespace Cert.Yolo

open Finset

variable {M : Type*} [AddCommMonoid M]

/-- A sum over the first `a * b` naturals, taken in `a` consecutive runs of `b`. -/
theorem sum_range_mul (f : ℕ → M) (a b : ℕ) :
    ∑ n ∈ range (a * b), f n = ∑ i ∈ range a, ∑ j ∈ range b, f (i * b + j) := by
  induction a with
  | zero => simp
  | succ a ih =>
    rw [Nat.succ_mul, sum_range_add, ih, sum_range_succ]

/-- A sum over `Fin n` of a function of the value is the sum over `range n`. -/
theorem sum_fin_eq_range (f : ℕ → M) (n : ℕ) : ∑ q : Fin n, f q.val = ∑ k ∈ range n, f k :=
  (Finset.sum_range f).symm

/-- The kernel's grouping: 2 outer indices, 112 grid points each, 7168 cells per point, is the
    plain sum over the first 1,605,632 naturals. -/
theorem sum_tiles (f : ℕ → M) :
    ∑ o ∈ range 2, ∑ s ∈ range 112, ∑ r ∈ range 7168, f ((112 * o + s) * 7168 + r)
      = ∑ n ∈ range 1605632, f n := by
  have h1 : ∑ n ∈ range (224 * 7168), f n = ∑ t ∈ range 224, ∑ r ∈ range 7168, f (t * 7168 + r) :=
    sum_range_mul f 224 7168
  have h2 : ∑ t ∈ range (2 * 112), (∑ r ∈ range 7168, f (t * 7168 + r))
      = ∑ o ∈ range 2, ∑ s ∈ range 112, ∑ r ∈ range 7168, f ((o * 112 + s) * 7168 + r) :=
    sum_range_mul (fun t => ∑ r ∈ range 7168, f (t * 7168 + r)) 2 112
  rw [show (1605632 : ℕ) = 224 * 7168 from rfl, h1, show (224 : ℕ) = 2 * 112 from rfl, h2]
  refine sum_congr rfl fun o _ => sum_congr rfl fun s _ => sum_congr rfl fun r _ => ?_
  rw [Nat.mul_comm 112 o]

/-- The kernel's totals: for each of the 2 outer indices, zero plus the 112 point sums, each point sum
    the sum of its 7168 cells, is the plain sum over the first 1,605,632 naturals. -/
theorem tiles_total (G pt : ℕ → M) (hpt : ∀ n, n < 224 → pt n = ∑ r ∈ range 7168, G (n * 7168 + r)) :
    ∑ o : Fin 2, (0 + ∑ s ∈ range 112, pt (112 * o.val + s)) = ∑ n ∈ range 1605632, G n := by
  rw [← sum_tiles G, ← Finset.sum_range (fun o => 0 + ∑ s ∈ range 112, pt (112 * o + s))]
  refine sum_congr rfl fun o ho => ?_
  rw [zero_add]
  refine sum_congr rfl fun s hs => ?_
  have ho' : o < 2 := mem_range.mp ho
  have hs' : s < 112 := mem_range.mp hs
  exact hpt (112 * o + s) (by omega)

end Cert.Yolo
-- ==== Proof.Bridge.lean ====
/-
  The two groupings of the cells give one sum.

  The kernel reads the two argument arrays through their reshape to [1605632, 13]: grid point `t`
  loads rows `7168 t … 7168 t + 7167`, so its sums run over the rows tile by tile. The reference
  reads cell `(b, y, x)` of the [32768, 7, 7, 13] arrays, which is row `(7 b + y) 7 + x` of the
  reshape (the reshape keeps the row-major order), so its sums run over all rows at once. For any
  function `g` of a predicted and a target cell, both are the sum of `g` over the 1,605,632 rows.
-/
import proofs.«408613_j41755672051846_3_alg».proof.Proof.KernelAcc
import proofs.«408613_j41755672051846_3_alg».proof.Proof.TileCell
import proofs.«408613_j41755672051846_3_alg».proof.Proof.RefCell
import proofs.«408613_j41755672051846_3_alg».proof.Proof.Regroup

noncomputable section

namespace Cert.Yolo

open Idealize.ShloMosaic Idealize.ShloMosaic.ValueIdx Idealize.ShloMosaic.TcCoe Idealize.SL.Sem Finset
open Cert.KernelIdeal Cert.KernelIdeal.Gen

/-- Row `n` of the reshape to [1605632, 13] of a [32768, 7, 7, 13] array: that cell's thirteen
    channels (all zero past the last row). -/
def flatRow (x : S32768x7x7x13.Idx → Ideal .f32) (n : ℕ) : Fin 13 → Ideal .f32 :=
  fun k => if hn : n < 1605632 then
    shapeCast S1605632x13 x shapeCasts_S32768x7x7x13_S1605632x13 (ix2 ⟨n, hn⟩ k) else 0

/-- Cell `(b, y, x)` of the array is row `(7 b + y) 7 + x` of its reshape. -/
theorem cellOf_eq_flatRow (x : S32768x7x7x13.Idx → Ideal .f32) (j : Cert.ReferenceIdeal.S32768x7x7.Idx) :
    cellOf x j = flatRow x (((j 0).val * 7 + (j 1).val) * 7 + (j 2).val) := by
  have h0 : (j 0).val < 32768 := (j 0).isLt
  have h1 : (j 1).val < 7 := (j 1).isLt
  have h2 : (j 2).val < 7 := (j 2).isLt
  have hn : ((j 0).val * 7 + (j 1).val) * 7 + (j 2).val < 1605632 := by omega
  funext k
  unfold cellOf flatRow
  rw [dif_pos hn]
  symm
  exact shapeCast_apply x shapeCasts_S32768x7x7x13_S1605632x13 (ix2 ⟨_, hn⟩ k) (ix4 (j 0) (j 1) (j 2) k)
    (by rw [Shape.rowMajor_val_four, Shape.rowMajor_val_two]; rfl)

section Kernel

variable (m : (ℓ : Loc nD τ sig) → Buf (Elt Ideal) ℓ) (c : Dev nD)

/-- Row `r` of the block of predicted cells that point `t` loads is row `7168 t + r` of the reshape
    of the first argument. -/
theorem rowOf_xp (t : Fin cfg0.N) (r : Fin 7168) :
    rowOf (xp m c t) r = flatRow (m ((c : Thread nD τ).loc main_arg0)) (t.val * 7168 + r.val) := by
  have ht : t.val < 224 := lt_of_lt_of_eq t.isLt (show cfg0.N = 224 from N_0)
  have hn : t.val * 7168 + r.val < 1605632 := by have := r.isLt; omega
  funext k
  unfold rowOf flatRow
  rw [dif_pos hn]
  exact xp_apply m c t r k hn

theorem rowOf_xt (t : Fin cfg0.N) (r : Fin 7168) :
    rowOf (xt m c t) r = flatRow (m ((c : Thread nD τ).loc main_arg1)) (t.val * 7168 + r.val) := by
  have ht : t.val < 224 := lt_of_lt_of_eq t.isLt (show cfg0.N = 224 from N_0)
  have hn : t.val * 7168 + r.val < 1605632 := by have := r.isLt; omega
  funext k
  unfold rowOf flatRow
  rw [dif_pos hn]
  exact xt_apply m c t r k hn

end Kernel

/-- The reference's grouping: the sum over the cells `(b, y, x)` is the sum over the rows. -/
theorem ref_total {M : Type*} [AddCommMonoid M] (G : ℕ → M) :
    ∑ j : Cert.ReferenceIdeal.S32768x7x7.Idx, G (((j 0).val * 7 + (j 1).val) * 7 + (j 2).val)
      = ∑ n ∈ range 1605632, G n := by
  have hN : Cert.ReferenceIdeal.S32768x7x7.numel = 1605632 := by
    rw [Shape.numel, Fin.prod_univ_three]; rfl
  rw [← hN, Finset.sum_range]
  exact Fintype.sum_equiv Cert.ReferenceIdeal.S32768x7x7.rowMajor _ _
    (fun j => congrArg G (Shape.rowMajor_val_three j).symm)

/-- THE BRIDGE. For a cell function `g`: when the accumulate step adds the block's sum of `g`
    (`hA`) and `pt` is the point sum along the grid (`hpt`), the kernel's two totals, each zero plus
    its 112 point sums, add up to the reference's sum of `g` over all cells. -/
theorem bridge (m : (ℓ : Loc nD τ sig) → Buf (Elt Ideal) ℓ) (c : Dev nD)
    (g : (Fin 13 → Ideal .f32) → (Fin 13 → Ideal .f32) → Ideal .f32)
    (A : Vec Ideal S7168x13 .f32 → Vec Ideal S7168x13 .f32 → Ideal .f32)
    (hA : ∀ x0 x1, A x0 x1 = ∑ r : Fin 7168, g (rowOf x0 r) (rowOf x1 r))
    (pt : ℕ → Ideal .f32)
    (hpt : ∀ n, pt n = if h : n < cfg0.N then A (xp m c ⟨n, h⟩) (xt m c ⟨n, h⟩) else 0) :
    ∑ o : Fin 2, (z0 + ∑ s ∈ range 112, pt (112 * o.val + s))
      = ∑ j : Cert.ReferenceIdeal.S32768x7x7.Idx,
          g (cellOf (m ((c : Thread nD τ).loc main_arg0)) j) (cellOf (m ((c : Thread nD τ).loc main_arg1)) j) := by
  have hz : (z0 : Ideal .f32) = 0 := Ideal.ofBits_zero_f32
  rw [hz]
  simp only [cellOf_eq_flatRow]
  rw [ref_total (fun n => g (flatRow (m ((c : Thread nD τ).loc main_arg0)) n) (flatRow (m ((c : Thread nD τ).loc main_arg1)) n))]
  refine tiles_total _ pt fun n hn => ?_
  have hN : n < cfg0.N := lt_of_lt_of_eq hn (show cfg0.N = 224 from N_0).symm
  rw [hpt n, dif_pos hN, hA, Finset.sum_range (fun r => g (flatRow (m ((c : Thread nD τ).loc main_arg0)) (n * 7168 + r))
    (flatRow (m ((c : Thread nD τ).loc main_arg1)) (n * 7168 + r)))]
  exact Finset.sum_congr rfl fun r _ => by rw [rowOf_xp m c ⟨n, hN⟩ r, rowOf_xt m c ⟨n, hN⟩ r]

end Cert.Yolo

end
-- ==== Proof.RefRun.lean ====
/-
  The reference's run, list by list.

  @main is a straight line of 287 host operations, cut into five lists. After each list the buffers that later
  operations still read hold the stage of that name: the operation's function composed with the stages of its
  operands. Chained over the five lists, every fair run of @main ends with the three results at their stages of the
  two arguments and the arguments unchanged.
-/
import proofs.«408613_j41755672051846_3_alg».proof.Proof.RefOps
import proofs.«408613_j41755672051846_3_alg».proof.Proof.RefStages
import Idealize.ShloMosaic.Lib.StableHlo.Run
import Idealize.ShloMosaic.Lib.Pipeline.Frame

noncomputable section

namespace Cert.ReferenceIdeal.StageRun

open Cert.ReferenceIdeal Cert.ReferenceIdeal.Gen Cert.ReferenceIdeal.Ops Cert.ReferenceIdeal.Stages Idealize.ShloMosaic Idealize.ShloMosaic.TcCoe Idealize.SL.Sem Idealize.ShloMosaic.StableHlo

variable {F : FTy → Type} [FloatOps F]

/-! ## The five lists

Each buffer's contents after a list are the fold of the list's operations read at that buffer: the operation that
writes it applied to the contents of its operands, and so on down to the buffers held on entry; a buffer no operation
of the list writes keeps what it held. -/

set_option maxRecDepth 8192 in
set_option maxHeartbeats 40000000 in
/-- After operations 0 to 104: the mask, the four boxes and the first box's intersection over union are at their
    stages of the arguments, and the arguments are as they were. -/
theorem afterA (W : Valuation τ sig (Elt F)) (x0 x1 : (⟨S32768x7x7x13, .f32⟩ : BufTy).Contents (Elt F))
    (h0 : W (Proc.devRef .tc main_arg0) = x0) (h1 : W (Proc.devRef .tc main_arg1) = x1) :
    after opsA W (Proc.devRef .tc main_v4) = val_main_v4 x1
    ∧ after opsA W (Proc.devRef .tc main_v5) = val_main_v5 x0
    ∧ after opsA W (Proc.devRef .tc main_v6) = val_main_v6 x0
    ∧ after opsA W (Proc.devRef .tc main_v7) = val_main_v7 x1
    ∧ after opsA W (Proc.devRef .tc main_v8) = val_main_v8 x1
    ∧ after opsA W (Proc.devRef .tc main_v81) = val_main_v81 x0 x1
    ∧ after opsA W (Proc.devRef .tc main_arg0) = x0
    ∧ after opsA W (Proc.devRef .tc main_arg1) = x1 := by
  subst h0 h1
  refine ⟨?_, ?_, ?_, ?_, ?_, ?_, ?_, ?_⟩ <;> after_results_simp <;> rfl

set_option maxRecDepth 8192 in
set_option maxHeartbeats 40000000 in
/-- After operations 105 to 199: the second box's intersection over union is at its stage, computed from the two
    second boxes; what was held is as it was. -/
theorem afterB (W : Valuation τ sig (Elt F)) (x0 x1 : (⟨S32768x7x7x13, .f32⟩ : BufTy).Contents (Elt F))
    (h4 : W (Proc.devRef .tc main_v4) = val_main_v4 x1) (h5 : W (Proc.devRef .tc main_v5) = val_main_v5 x0)
    (h6 : W (Proc.devRef .tc main_v6) = val_main_v6 x0) (h7 : W (Proc.devRef .tc main_v7) = val_main_v7 x1)
    (h8 : W (Proc.devRef .tc main_v8) = val_main_v8 x1) (h81 : W (Proc.devRef .tc main_v81) = val_main_v81 x0 x1)
    (h0 : W (Proc.devRef .tc main_arg0) = x0) (h1 : W (Proc.devRef .tc main_arg1) = x1) :
    after opsB W (Proc.devRef .tc main_v4) = val_main_v4 x1
    ∧ after opsB W (Proc.devRef .tc main_v5) = val_main_v5 x0
    ∧ after opsB W (Proc.devRef .tc main_v6) = val_main_v6 x0
    ∧ after opsB W (Proc.devRef .tc main_v7) = val_main_v7 x1
    ∧ after opsB W (Proc.devRef .tc main_v8) = val_main_v8 x1
    ∧ after opsB W (Proc.devRef .tc main_v81) = val_main_v81 x0 x1
    ∧ after opsB W (Proc.devRef .tc main_v154) = val_main_v154 x0 x1
    ∧ after opsB W (Proc.devRef .tc main_arg0) = x0
    ∧ after opsB W (Proc.devRef .tc main_arg1) = x1 := by
  refine ⟨?_, ?_, ?_, ?_, ?_, ?_, ?_, ?_, ?_⟩
  · after_results_simp; exact h4
  · after_results_simp; exact h5
  · after_results_simp; exact h6
  · after_results_simp; exact h7
  · after_results_simp; exact h8
  · after_results_simp; exact h81
  · after_results_simp; rw [h6, h8]; rfl
  · after_results_simp; exact h0
  · after_results_simp; exact h1

set_option maxRecDepth 8192 in
set_option maxHeartbeats 40000000 in
/-- After operations 200 to 243: the two localisation errors are at their stages, each computed from its predicted
    and its target box; the boxes are not read again. -/
theorem afterC (W : Valuation τ sig (Elt F)) (x0 x1 : (⟨S32768x7x7x13, .f32⟩ : BufTy).Contents (Elt F))
    (h4 : W (Proc.devRef .tc main_v4) = val_main_v4 x1) (h5 : W (Proc.devRef .tc main_v5) = val_main_v5 x0)
    (h6 : W (Proc.devRef .tc main_v6) = val_main_v6 x0) (h7 : W (Proc.devRef .tc main_v7) = val_main_v7 x1)
    (h8 : W (Proc.devRef .tc main_v8) = val_main_v8 x1) (h81 : W (Proc.devRef .tc main_v81) = val_main_v81 x0 x1)
    (h154 : W (Proc.devRef .tc main_v154) = val_main_v154 x0 x1)
    (h0 : W (Proc.devRef .tc main_arg0) = x0) (h1 : W (Proc.devRef .tc main_arg1) = x1) :
    after opsC W (Proc.devRef .tc main_v4) = val_main_v4 x1
    ∧ after opsC W (Proc.devRef .tc main_v81) = val_main_v81 x0 x1
    ∧ after opsC W (Proc.devRef .tc main_v154) = val_main_v154 x0 x1
    ∧ after opsC W (Proc.devRef .tc main_v176) = val_main_v176 x0 x1
    ∧ after opsC W (Proc.devRef .tc main_v190) = val_main_v190 x0 x1
    ∧ after opsC W (Proc.devRef .tc main_arg0) = x0
    ∧ after opsC W (Proc.devRef .tc main_arg1) = x1 := by
  refine ⟨?_, ?_, ?_, ?_, ?_, ?_, ?_⟩
  · after_results_simp; exact h4
  · after_results_simp; exact h81
  · after_results_simp; exact h154
  · after_results_simp; rw [h5, h7]; rfl
  · after_results_simp; rw [h6, h8]; rfl
  · after_results_simp; exact h0
  · after_results_simp; exact h1

set_option maxRecDepth 8192 in
set_option maxHeartbeats 40000000 in
/-- After operations 244 to 264: the responsible box's localisation error and objectness error are at their stages;
    the objectness errors read the two confidences out of the first argument again. -/
theorem afterD (W : Valuation τ sig (Elt F)) (x0 x1 : (⟨S32768x7x7x13, .f32⟩ : BufTy).Contents (Elt F))
    (h4 : W (Proc.devRef .tc main_v4) = val_main_v4 x1) (h81 : W (Proc.devRef .tc main_v81) = val_main_v81 x0 x1)
    (h154 : W (Proc.devRef .tc main_v154) = val_main_v154 x0 x1)
    (h176 : W (Proc.devRef .tc main_v176) = val_main_v176 x0 x1)
    (h190 : W (Proc.devRef .tc main_v190) = val_main_v190 x0 x1)
    (h0 : W (Proc.devRef .tc main_arg0) = x0) (h1 : W (Proc.devRef .tc main_arg1) = x1) :
    after opsD W (Proc.devRef .tc main_v4) = val_main_v4 x1
    ∧ after opsD W (Proc.devRef .tc main_v208) = val_main_v208 x0 x1
    ∧ after opsD W (Proc.devRef .tc main_v209) = val_main_v209 x0 x1
    ∧ after opsD W (Proc.devRef .tc main_arg0) = x0
    ∧ after opsD W (Proc.devRef .tc main_arg1) = x1 := by
  refine ⟨?_, ?_, ?_, ?_, ?_⟩
  · after_results_simp; exact h4
  · after_results_simp; rw [h81, h154, h176, h190]; rfl
  · after_results_simp; rw [h81, h154, h0]; rfl
  · after_results_simp; exact h0
  · after_results_simp; exact h1

set_option maxRecDepth 8192 in
set_option maxHeartbeats 40000000 in
/-- After operations 265 to 286: the three results are at their stages of the arguments; the class term reads the
    class scores out of both arguments. -/
theorem afterE (W : Valuation τ sig (Elt F)) (x0 x1 : (⟨S32768x7x7x13, .f32⟩ : BufTy).Contents (Elt F))
    (h4 : W (Proc.devRef .tc main_v4) = val_main_v4 x1)
    (h208 : W (Proc.devRef .tc main_v208) = val_main_v208 x0 x1)
    (h209 : W (Proc.devRef .tc main_v209) = val_main_v209 x0 x1)
    (h0 : W (Proc.devRef .tc main_arg0) = x0) (h1 : W (Proc.devRef .tc main_arg1) = x1) :
    after opsE W (Proc.devRef .tc main_v225) = val_main_v225 x0 x1
    ∧ after opsE W (Proc.devRef .tc main_v213) = val_main_v213 x0 x1
    ∧ after opsE W (Proc.devRef .tc main_v224) = val_main_v224 x0 x1
    ∧ after opsE W (Proc.devRef .tc main_arg0) = x0
    ∧ after opsE W (Proc.devRef .tc main_arg1) = x1 := by
  refine ⟨?_, ?_, ?_, ?_, ?_⟩
  · after_results_simp; rw [h4, h208]; rfl
  · after_results_simp; rw [h4, h209]; rfl
  · after_results_simp; rw [h4, h0, h1]; rfl
  · after_results_simp; exact h0
  · after_results_simp; exact h1

/-! ## The five lists end to end -/

/-- The contents after all of @main are the contents after the five lists in turn. -/
theorem after_ops (W : Valuation τ sig (Elt F)) :
    after ops W = after opsE (after opsD (after opsC (after opsB (after opsA W)))) := by
  show after (opsA ++ (opsB ++ (opsC ++ (opsD ++ opsE)))) W = _
  rw [after_append, after_append, after_append, after_append]

/-- After all of @main, from any contents with the arguments at `x0` and `x1`: the three results are at their stages
    of the arguments, and the arguments are as they were. -/
theorem afterOps (W : Valuation τ sig (Elt F)) (x0 x1 : (⟨S32768x7x7x13, .f32⟩ : BufTy).Contents (Elt F))
    (h0 : W (Proc.devRef .tc main_arg0) = x0) (h1 : W (Proc.devRef .tc main_arg1) = x1) :
    after ops W (Proc.devRef .tc main_v225) = val_main_v225 x0 x1
    ∧ after ops W (Proc.devRef .tc main_v213) = val_main_v213 x0 x1
    ∧ after ops W (Proc.devRef .tc main_v224) = val_main_v224 x0 x1
    ∧ after ops W (Proc.devRef .tc main_arg0) = x0
    ∧ after ops W (Proc.devRef .tc main_arg1) = x1 := by
  obtain ⟨a4, a5, a6, a7, a8, a81, a0, a1⟩ := afterA W x0 x1 h0 h1
  obtain ⟨b4, b5, b6, b7, b8, b81, b154, b0, b1⟩ := afterB (after opsA W) x0 x1 a4 a5 a6 a7 a8 a81 a0 a1
  obtain ⟨c4, c81, c154, c176, c190, c0, c1⟩ :=
    afterC (after opsB (after opsA W)) x0 x1 b4 b5 b6 b7 b8 b81 b154 b0 b1
  obtain ⟨d4, d208, d209, d0, d1⟩ :=
    afterD (after opsC (after opsB (after opsA W))) x0 x1 c4 c81 c154 c176 c190 c0 c1
  rw [after_ops]
  exact afterE (after opsD (after opsC (after opsB (after opsA W)))) x0 x1 d4 d208 d209 d0 d1

/-- An operation of @main is an operation of one of the five lists. -/
theorem mem_ops {op : HloOp τ sig (Elt F)} (h : op ∈ (ops : List (HloOp τ sig (Elt F)))) :
    op ∈ (opsA : List (HloOp τ sig (Elt F))) ∨ op ∈ (opsB : List (HloOp τ sig (Elt F)))
      ∨ op ∈ (opsC : List (HloOp τ sig (Elt F))) ∨ op ∈ (opsD : List (HloOp τ sig (Elt F)))
      ∨ op ∈ (opsE : List (HloOp τ sig (Elt F))) := by
  rcases List.mem_append.1 h with h | h
  · exact Or.inl h
  rcases List.mem_append.1 h with h | h
  · exact Or.inr (Or.inl h)
  rcases List.mem_append.1 h with h | h
  · exact Or.inr (Or.inr (Or.inl h))
  rcases List.mem_append.1 h with h | h
  · exact Or.inr (Or.inr (Or.inr (Or.inl h)))
  · exact Or.inr (Or.inr (Or.inr (Or.inr h)))

/-- Every operation of @main touches TensorCore references only. -/
theorem ops_sub : (ops : List (HloOp τ sig (Elt F))).Forall fun op => op.bufs ⊆ tcRefs τ sig :=
  List.forall_iff_forall_mem.2 fun op h => by
    rcases mem_ops h with h | h | h | h | h
    · exact List.forall_iff_forall_mem.1 opsA_sub op h
    · exact List.forall_iff_forall_mem.1 opsB_sub op h
    · exact List.forall_iff_forall_mem.1 opsC_sub op h
    · exact List.forall_iff_forall_mem.1 opsD_sub op h
    · exact List.forall_iff_forall_mem.1 opsE_sub op h

/-- No operation of @main allocates: each determines its results. -/
theorem ops_fresh (op : HloOp τ sig (Elt F)) (h : op ∈ (ops : List (HloOp τ sig (Elt F)))) : op.fresh = ∅ := by
  rcases mem_ops h with h | h | h | h | h
  · exact List.forall_iff_forall_mem.1 opsA_fresh op h
  · exact List.forall_iff_forall_mem.1 opsB_fresh op h
  · exact List.forall_iff_forall_mem.1 opsC_fresh op h
  · exact List.forall_iff_forall_mem.1 opsD_fresh op h
  · exact List.forall_iff_forall_mem.1 opsE_fresh op h

/-! ## The run -/

/-- On every device, for any float values, from any memory with zero counters: every weakly fair execution of @main
    terminates with each result at its stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v225)
          = val_main_v225 (m ((c.tc : Thread nD τ).loc main_arg0)) (m ((c.tc : Thread nD τ).loc main_arg1))
      ∧ r.2.mem ((c.tc : Thread nD τ).loc main_v213)
          = val_main_v213 (m ((c.tc : Thread nD τ).loc main_arg0)) (m ((c.tc : Thread nD τ).loc main_arg1))
      ∧ r.2.mem ((c.tc : Thread nD τ).loc main_v224)
          = val_main_v224 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      obtain ⟨e225, e213, e224, e0, e1⟩ := afterOps (F := F) (launchContents m c)
        (m ((c.tc : Thread nD τ).loc main_arg0)) (m ((c.tc : Thread nD τ).loc main_arg1)) rfl rfl
      exact ⟨(h c main_v225).trans e225, (h c main_v213).trans e213, (h c main_v224).trans e224,
        (h c main_arg0).trans e0, (h c main_arg1).trans e1⟩)
    (run_seq scopedRefs_eq scopedSems_eq defs main (fun _ => ops) main_eq (fun _ => ops_sub) m ρ
      (hfresh := fun _ op hop => ops_fresh op hop))

end Cert.ReferenceIdeal.StageRun

end
-- ==== Proof.lean ====
/-
  The kernel and its reference compute one loss.

  Both programs take predicted and target cells of thirteen channels (two boxes, their
  confidences, three class scores) and return three numbers: five times the sum of the cells'
  localisation terms, the sum of their objectness terms, and the sum of their squared class
  errors divided by three times the number of cells that hold an object. Cell by cell the two
  programs apply the same exact operations to the same channels (Cell.lean has them as scalar
  functions; TileCell.lean reads the kernel body's block arithmetic at a row, RefCell.lean the
  reference's arrays at a cell). They differ only in how the cells are grouped: the reference
  sums over all 32768 x 7 x 7 cells at once, the kernel over blocks of 7168 rows of the
  [1605632, 13] reshape, 112 blocks into each of two accumulators that restart from zero, and the
  host adds the two. Addition of extended reals is commutative and associative and `0 + x = x`,
  so the totals agree (Regroup.lean, Bridge.lean); no finiteness of the inputs is needed.

  The kernel's run is the generated frame run, read back: what each case of the body leaves in
  the accumulators, the induction along an outer index, the result arrays and the host lines
  after the region (KernelAcc.lean). The reference's run is proved over its operations' stages,
  list by list (RefOps.lean, RefStages.lean, RefRun.lean). The ideal pass rewrote nothing, so
  `preserves` is trivial, and the two word-level frames are the generated ones.
-/
import proofs.«408613_j41755672051846_3_alg».proof.Defs
import proofs.«408613_j41755672051846_3_alg».proof.Proof.Gen.Kernel
import proofs.«408613_j41755672051846_3_alg».proof.Proof.Gen.Kernel.Skeleton
import proofs.«408613_j41755672051846_3_alg».proof.Proof.Gen.Kernel.Launch
import proofs.«408613_j41755672051846_3_alg».proof.Proof.Gen.Kernel.Points
import proofs.«408613_j41755672051846_3_alg».proof.Proof.Gen.Kernel.Frame
import proofs.«408613_j41755672051846_3_alg».proof.Proof.Gen.KernelIdeal
import proofs.«408613_j41755672051846_3_alg».proof.Proof.Gen.KernelIdeal.Skeleton
import proofs.«408613_j41755672051846_3_alg».proof.Proof.Gen.KernelIdeal.Launch
import proofs.«408613_j41755672051846_3_alg».proof.Proof.Gen.KernelIdeal.Points
import proofs.«408613_j41755672051846_3_alg».proof.Proof.Gen.KernelIdeal.Frame
import proofs.«408613_j41755672051846_3_alg».proof.Proof.Gen.ReferenceIdeal
import proofs.«408613_j41755672051846_3_alg».proof.Proof.Gen.Pre_finite_inputs
import proofs.«408613_j41755672051846_3_alg».proof.Proof.Bridge
import proofs.«408613_j41755672051846_3_alg».proof.Proof.RefRun
import Idealize.ShloMosaic.Adequacy
import Idealize.ShloMosaic.Init

noncomputable section

namespace Cert.Proof

open Idealize.ShloMosaic Idealize.ShloMosaic.TcCoe Idealize.ShloMosaic.ValueIdx Idealize.SL.Sem
open Cert.Yolo Cert.KernelIdeal Cert.KernelIdeal.Gen

/-! ## What the body adds into its accumulators at one grid point -/

/-- The block's sum of the localisation terms. -/
abbrev A2 (x0 x1 : Vec Ideal S7168x13 .f32) : Ideal .f32 := ∑ r : Fin 7168, locTerm (rowOf x0 r) (rowOf x1 r)
/-- The block's sum of the objectness terms. -/
abbrev A3 (x0 x1 : Vec Ideal S7168x13 .f32) : Ideal .f32 := ∑ r : Fin 7168, objTerm (rowOf x0 r) (rowOf x1 r)
/-- The block's sum of the squared class errors. -/
abbrev A4 (x0 x1 : Vec Ideal S7168x13 .f32) : Ideal .f32 :=
  ∑ r : Fin 7168, ∑ k : Fin 3, clsTerm (rowOf x0 r) (rowOf x1 r) k
/-- The block's number of cells that hold an object. -/
abbrev A5 (x1 : Vec Ideal S7168x13 .f32) : Ideal .f32 := ∑ r : Fin 7168, mask (rowOf x1 r)

theorem hb2 : Adds2 A2 := fun x0 x1 a => bOut2_eq x0 x1 a
theorem hb3 : Adds3 A3 := fun x0 x1 a => bOut3_eq x0 x1 a
theorem hb4 : Adds4 A4 := fun x0 x1 a => bOut4_eq x0 x1 a
theorem hb5 : Adds5 A5 := fun x1 a => bOut5_eq x1 a

/-! ## The kernel's totals are the reference's sums -/

section Totals

variable (m : (ℓ : Loc nD τ sig) → Buf (Elt Ideal) ℓ) (c : Dev nD)

theorem total2 : ∑ o : Fin 2, fin2 m A2 c (ix3 o 0 0)
    = ∑ j : Cert.ReferenceIdeal.S32768x7x7.Idx,
        locTerm (cellOf (m ((c : Thread nD τ).loc main_arg0)) j) (cellOf (m ((c : Thread nD τ).loc main_arg1)) j) :=
  bridge m c (fun p t => locTerm p t) A2 (fun _ _ => rfl) (pt2 m A2 c) (fun _ => rfl)

theorem total3 : ∑ o : Fin 2, fin3 m A3 c (ix3 o 0 0)
    = ∑ j : Cert.ReferenceIdeal.S32768x7x7.Idx,
        objTerm (cellOf (m ((c : Thread nD τ).loc main_arg0)) j) (cellOf (m ((c : Thread nD τ).loc main_arg1)) j) :=
  bridge m c (fun p t => objTerm p t) A3 (fun _ _ => rfl) (pt3 m A3 c) (fun _ => rfl)

theorem total4 : ∑ o : Fin 2, fin4 m A4 c (ix3 o 0 0)
    = ∑ j : Cert.ReferenceIdeal.S32768x7x7.Idx, ∑ k : Fin 3,
        clsTerm (cellOf (m ((c : Thread nD τ).loc main_arg0)) j) (cellOf (m ((c : Thread nD τ).loc main_arg1)) j) k :=
  bridge m c (fun p t => ∑ k : Fin 3, clsTerm p t k) A4 (fun _ _ => rfl) (pt4 m A4 c) (fun _ => rfl)

theorem total5 : ∑ o : Fin 2, fin5 m A5 c (ix3 o 0 0)
    = ∑ j : Cert.ReferenceIdeal.S32768x7x7.Idx, mask (cellOf (m ((c : Thread nD τ).loc main_arg1)) j) :=
  bridge m c (fun _ t => mask t) (fun _ x1 => A5 x1) (fun _ _ => rfl) (pt5 m A5 c) (fun _ => rfl)

end Totals

/-! ## The claims -/

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => ⟨(h c).2.2.2.1, (h c).2.2.2.2⟩)
    (Cert.ReferenceIdeal.StageRun.run (F := Ideal) m ρ)

/-- From memories that agree on the two arguments both programs run, and their three results are
    equal: each of the kernel's totals is the reference's sum over the cells. -/
theorem algebraic : Cert.algebraic_KernelIdeal_ReferenceIdeal := by
  intro m ρ m' ρ' _ hagree
  refine ⟨_, _, _, Cert.KernelIdeal.Gen.run m ρ A2 A3 A4 A5 hb2 hb3 hb4 hb5, ?_⟩
  refine (θ_run Cert.ReferenceIdeal.defs _ _).mono (fun _ h c =>
    ⟨(h c).1.trans ?_, (h c).2.1.trans ?_, (h c).2.2.1.trans ?_, (h c).2.2.2.1, (h c).2.2.2.2⟩)
    (Cert.ReferenceIdeal.StageRun.run (F := Ideal) m' ρ')
  · rw [(hagree c).1, (hagree c).2, ref_loc]
    funext _
    rw [total2 m c]
  · rw [(hagree c).1, (hagree c).2, ref_obj]
    funext _
    rw [total3 m c]
  · rw [(hagree c).1, (hagree c).2, ref_cls]
    funext _
    rw [total4 m c, total5 m c]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
